-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x10000 .f32) (main_arg1 : FVec F S10000x10000 .f32) (main_arg2 : FVec F S10000x128 .f32) (main_arg3 : FVec F S128x128 .f32) (main_arg4 : FVec F S128 .f32) (main_arg5 : FVec F S128x128 .f32) (main_arg6 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S1000x2560 : Shape := ⟨2, ![1000, 2560]⟩
abbrev S2560x128 : Shape := ⟨2, ![2560, 128]⟩
abbrev S128x2560 : Shape := ⟨2, ![128, 2560]⟩
abbrev S1000x128 : Shape := ⟨2, ![1000, 128]⟩
abbrev S128x1000 : Shape := ⟨2, ![128, 1000]⟩

abbrev nBuf : Space → Nat
  | .hbm => 10
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S1000x2560, .f32⟩
  | .local _ .vmem, ⟨6, _⟩ => ⟨S1000x2560, .f32⟩
  | .local _ .vmem, ⟨7, _⟩ => ⟨S1000x2560, .f32⟩
  | .local _ .vmem, ⟨8, _⟩ => ⟨S1000x2560, .f32⟩
  | .local _ .vmem, ⟨9, _⟩ => ⟨S2560x128, .f32⟩
  | .local _ .vmem, ⟨10, _⟩ => ⟨S2560x128, .f32⟩
  | .local _ .vmem, ⟨11, _⟩ => ⟨S128x2560, .f32⟩
  | .local _ .vmem, ⟨12, _⟩ => ⟨S10000x128, .bf16⟩
  | .local _ .vmem, ⟨13, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 10], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c1000_i32_13 : BitVec 32 := 1000#32
  let v27 : BitVec 32 := Scalar.muli arg1 c1000_i32_13
  let v28 : Index := Scalar.indexCast v27
  let c0_14 : Index := 0#32
  ![v28.toNat, 0]
def k0_off2 (i : grid0.Coords) : Fin 2 → Nat :=
  let arg1 : BitVec 32 := BitVec.ofNat 32 (i 1).val
  let c1000_i32 : BitVec 32 := 1000#32
  let v3 : BitVec 32 := Scalar.muli arg1 c1000_i32
  let v4 : Index := Scalar.indexCast v3
  let c0 : Index := 0#32
  ![v4.toNat, 0]
def k0_cond4 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1000x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1000x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S128_S1x128_1 : S128.BroadcastsInDim S1x128 (![1] : Fin 1 → Fin S1x128.rank)
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  bitsLt_bf16_f32 : FTy.bits .bf16 < FTy.bits .f32
  shapeCasts_S1000x128_S1000x128 : S1000x128.ShapeCasts S1000x128
  transposes_S1000x128_p1_0_S128x1000 : S1000x128.Transposes [1, 0] S128x1000
  inb_S1000x2560_S1000x2560_0_0 : ∀ a, (![0, 0] : Fin 2 → Nat) a + S1000x2560.size a ≤ S1000x2560.size a
  h_S1000x2560 : 0 < S1000x2560.numel
  inb_S128x2560_S128x2560_0_0 : ∀ a, (![0, 0] : Fin 2 → Nat) a + S128x2560.size a ≤ S128x2560.size a
  h_S128x2560 : 0 < S128x2560.numel
  shapeCasts_S128x2560_S128x2560 : S128x2560.ShapeCasts S128x2560
  transposes_S128x2560_p1_0_S2560x128 : S128x2560.Transposes [1, 0] S2560x128
  inb_S2560x128_S2560x128_0_0 : ∀ a, (![0, 0] : Fin 2 → Nat) a + S2560x128.size a ≤ S2560x128.size a
  h_S2560x128 : 0 < S2560x128.numel
  dot_S1000x128_S128x128_S1000x128_1_1_0_0_n_n_wf : DotDims.WF S1000x128 S128x128 S1000x128 [1] [1] [0] [0] [] []
  dot_S128x1000_S1000x2560_S128x2560_1_0_0_1_n_n_wf : DotDims.WF S128x1000 S1000x2560 S128x2560 [1] [0] [0] [1] [] []
  hrank0 : 0 < grid0.rank
  k0_off1_inb : ∀ i : grid0.Coords, ∀ (k0_h1 : k0_cond1 i = 1#1), ∀ a, (k0_off1 i) a + S1000x128.size a ≤ S10000x128.size a
  k0_off1_packedbf16 : ∀ i : grid0.Coords, ∀ (k0_h1 : k0_cond1 i = 1#1), (Rect.unit (s := S10000x128) (k0_off1 i) S1000x128.size (k0_off1_inb i k0_h1)).PackedRows (EltTy.packing .bf16)
  k0_off2_inb : ∀ i : grid0.Coords, ∀ a, (k0_off2 i) a + S1000x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1000x2560.size a < S10000x10000.size a
  hwx0_5 : ∀ i : grid0.Coords, EltTy.bits .f32 = 32 ∨ (Rect.unit (s := S10000x10000) (fun a => cc0_transform_5 i a * S1000x2560.size a) (fun a => (Pipeline.Clip.of (cc0_transform_5 i a) (S1000x2560.size a) (S10000x10000.size a)).extent (S1000x2560.size a)) fun a => Pipeline.Clip.inb (Pipeline.Clip.ok_of (hstart0_5 i a))).WholeWords (EltTy.packing .f32)
  hwxs0_5 : ∀ i : grid0.Coords, EltTy.bits .f32 = 32 ∨ (Rect.unit (s := S1000x2560) (fun _ => 0) (fun a => (Pipeline.Clip.of (cc0_transform_5 i a) (S1000x2560.size a) (S10000x10000.size a)).extent (S1000x2560.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1000x2560.size a < S10000x10000.size a
  hwx0_6 : ∀ i : grid0.Coords, EltTy.bits .f32 = 32 ∨ (Rect.unit (s := S10000x10000) (fun a => cc0_transform_6 i a * S1000x2560.size a) (fun a => (Pipeline.Clip.of (cc0_transform_6 i a) (S1000x2560.size a) (S10000x10000.size a)).extent (S1000x2560.size a)) fun a => Pipeline.Clip.inb (Pipeline.Clip.ok_of (hstart0_6 i a))).WholeWords (EltTy.packing .f32)
  hwxs0_6 : ∀ i : grid0.Coords, EltTy.bits .f32 = 32 ∨ (Rect.unit (s := S1000x2560) (fun _ => 0) (fun a => (Pipeline.Clip.of (cc0_transform_6 i a) (S1000x2560.size a) (S10000x10000.size a)).extent (S1000x2560.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S2560x128.size a < S10000x128.size a
  hwx0_7 : ∀ i : grid0.Coords, EltTy.bits .f32 = 32 ∨ (Rect.unit (s := S10000x128) (fun a => cc0_transform_7 i a * S2560x128.size a) (fun a => (Pipeline.Clip.of (cc0_transform_7 i a) (S2560x128.size a) (S10000x128.size a)).extent (S2560x128.size a)) fun a => Pipeline.Clip.inb (Pipeline.Clip.ok_of (hstart0_7 i a))).WholeWords (EltTy.packing .f32)
  hwxs0_7 : ∀ i : grid0.Coords, EltTy.bits .f32 = 32 ∨ (Rect.unit (s := S2560x128) (fun _ => 0) (fun a => (Pipeline.Clip.of (cc0_transform_7 i a) (S2560x128.size a) (S10000x128.size a)).extent (S2560x128.size a)) fun a => (Nat.zero_add _).trans_le (Pipeline.Clip.extent_le (Pipeline.Clip.ok_of (hstart0_7 i a)))).WholeWords (EltTy.packing .f32)

variable [Facts₀]

def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S128x1000_S1000x2560_S128x2560_1_0_0_1_n_n : DotDims S128x1000 S1000x2560 S128x2560 where
  lhsContracting := [1]
  rhsContracting := [0]
  lhsNonContracting := [0]
  rhsNonContracting := [1]
  lhsBatch := []
  rhsBatch := []
  wf := dot_S128x1000_S1000x2560_S128x2560_1_0_0_1_n_n_wf

abbrev win0_0 : Pipeline.Window sig grid0 :=
  Pipeline.Window.ofSpec (Memref.whole main_arg2) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_arg0) S1000x2560.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_arg1) S1000x2560.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v2) S2560x128.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x10000, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S10000x128, .f32⟩
  | .hbm, ⟨9, _⟩ => ⟨S10000x10000, .f32⟩
  | .hbm, ⟨10, _⟩ => ⟨S128x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x10000, .f32⟩
  | .hbm, ⟨18, _⟩ => ⟨S128x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  transposes_S10000x10000_S10000x10000_1_0 : S10000x10000.Transposes [1, 0] S10000x10000
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBodyDefs.lean ====
import proofs.«179478_g15805479649410_cont_week2b_796_19_alg».proof.Proof.Gen.Kernel.Launch
import proofs.«179478_g15805479649410_cont_week2b_796_19_alg».proof.Proof.Gen.Kernel.Skeleton
import proofs.«179478_g15805479649410_cont_week2b_796_19_alg».proof.Proof.Gen.Kernel.Points
import proofs.«179478_g15805479649410_cont_week2b_796_19_alg».proof.Proof.Gen.Kernel.Frame
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first stripe of destination columns: the affine maps are computed and kept there. -/
abbrev firstStripe (i : grid0.Coords) : Prop := k0_cond1 i = 1#1
/-- The first contraction block of a stripe: the accumulator is overwritten. -/
abbrev firstBlock (i : grid0.Coords) : Prop :=
  (Scalar.cmpi .ne (Scalar.extui (Scalar.cmpi .eq (BitVec.ofNat 32 (i 1).val) 0#32)) 0#32) = 1#1
/-- A later contraction block: the accumulator is added to. -/
abbrev laterBlock (i : grid0.Coords) : Prop :=
  (Scalar.cmpi .ne (Scalar.extui (Scalar.cmpi .sgt (BitVec.ofNat 32 (i 1).val) 0#32)) 0#32) = 1#1
/-- The last contraction block: the accumulator is transposed into the output block. -/
abbrev lastBlock (i : grid0.Coords) : Prop := k0_cond4 i = 1#1

theorem firstStripe_iff : ∀ t : Fin cfg0.N, firstStripe (grid0.coords t) ↔ t.val < 10 :=
  (by decide +kernel : ∀ t : Fin grid0.N, firstStripe (grid0.coords t) ↔ t.val < 10)
theorem firstBlock_iff : ∀ t : Fin cfg0.N, firstBlock (grid0.coords t) ↔ t.val % 10 = 0 :=
  (by decide +kernel : ∀ t : Fin grid0.N, firstBlock (grid0.coords t) ↔ t.val % 10 = 0)
theorem laterBlock_iff : ∀ t : Fin cfg0.N, laterBlock (grid0.coords t) ↔ t.val % 10 ≠ 0 :=
  (by decide +kernel : ∀ t : Fin grid0.N, laterBlock (grid0.coords t) ↔ t.val % 10 ≠ 0)
theorem lastBlock_iff : ∀ t : Fin cfg0.N, lastBlock (grid0.coords t) ↔ t.val % 10 = 9 :=
  (by decide +kernel : ∀ t : Fin grid0.N, lastBlock (grid0.coords t) ↔ t.val % 10 = 9)

theorem zero2 : (![0, 0] : Fin 2 → ℕ) = fun _ => 0 := funext fun a => by fin_cases a <;> rfl

/-- A load through the rectangle of the one piece written reads that piece's payload. -/
theorem readCov_single_self {sig' : RefSig} {κ : Kind} {sp : Space} {S : Shape} {e : EltTy} [∀ e, Nonempty (Elt F e)]
    (v : View sig' κ sp S e) (r : Rect S) (w : r.shape.Idx → Elt F e) :
    v.readCov [(⟨r, w⟩ : View.Piece (Elt F) S e)] r.toLoadRect = w := by
  rw [View.readCov_eq_canon']; funext j; exact View.canon_cons_emb r w [] j

/-- The rows of contraction block `k` as the first stripe stores them, and as every point loads them. -/
abbrev rowsSt (i : grid0.Coords) (h : firstStripe i) : Rect S10000x128 := Rect.unit (s := S10000x128) (k0_off1 i) S1000x128.size (k0_off1_inb i h)
abbrev rowsLd (i : grid0.Coords) : Rect S10000x128 := Rect.unit (s := S10000x128) (k0_off2 i) S1000x128.size (k0_off2_inb i)

/-- `Y'` is `Y` with the 1000 rows from row `o` on replaced by `P`. -/
def RowsSet (o : ℕ) (P : Vec F S1000x128 .bf16) (Y Y' : Vec F S10000x128 .bf16) : Prop :=
  (∀ (y : S10000x128.Idx) (x : S1000x128.Idx), (y 0).val = o + (x 0).val → (y 1).val = (x 1).val → Y' y = P x)
  ∧ (∀ y : S10000x128.Idx, ((y 0).val < o ∨ o + 1000 ≤ (y 0).val) → Y' y = Y y)

/-- One store of the 1000 rows from row `o` on into a whole (10000, 128) buffer holding `Y` leaves `Y` with those rows replaced. -/
theorem rowsSet_writes (a : Memref sig .tc .vmem S10000x128 .bf16) (h : a.IsWhole) (Y : Vec F S10000x128 .bf16)
    (off : Fin 2 → ℕ) (inb : ∀ b, off b + S1000x128.size b ≤ S10000x128.size b) (W P : Vec F S1000x128 .bf16) (o : ℕ)
    (hoff : off = ![o, 0]) (hW : W = P) :
    RowsSet o P Y (a.view.read (Elt F) (a.view.writes (Elt F) (h.unread Y)
      [(⟨Rect.unit (s := S10000x128) off S1000x128.size inb, W⟩ : View.Piece (Elt F) S10000x128 .bf16)])) := by
  subst hW
  refine ⟨fun y x hx0 hx1 => ?_, fun y hy => ?_⟩
  · exact View.read_writes_cons_rows_of_mem a.view (h.unread Y) inb W [] y x hoff hx0 hx1
  · rw [View.read_writes_cons_rows_of_not_mem a.view (h.unread Y) inb W [] y hoff (W := 1000) rfl hy, View.writes_nil, h.read_unread]

/-- One store of a whole block into a buffer leaves the block stored. -/
theorem read_writes_whole {S : Shape} {e : EltTy} [∀ e, Nonempty (Elt F e)] (a : Memref sig .tc .vmem S e) (f : a.view.ty.Contents (Elt F))
    (off : Fin S.rank → ℕ) (hz : off = fun _ => 0) (inb : ∀ b, off b + S.size b ≤ S.size b) (W P : S.Idx → Elt F e) (hW : W = P) :
    a.view.read (Elt F) (a.view.writes (Elt F) f [(⟨Rect.unit off S.size inb, W⟩ : View.Piece (Elt F) S e)]) = P := by
  subst hW
  rw [View.read_writes_eq_canon _ _ _ (fun y => ⟨_, List.mem_singleton_self _, View.mem_set_unit_zero hz inb y⟩), View.canon_unit_zero hz]

/-- A load of a whole rank-2 block reads the block. -/
theorem ld_zero2 {d : Fin 2 → ℕ} {e : EltTy} (X : (⟨2, d⟩ : Shape).Idx → Elt F e)
    (inb : ∀ b, (![0, 0] : Fin 2 → ℕ) b + d b ≤ d b) :
    View.ld X (Rect.unit (s := ⟨2, d⟩) ![0, 0] d inb) = X := View.ld_unit_zero (S := ⟨2, d⟩) zero2 inb X

end Cert.Kernel.Body
end
-- ==== Proof.KBodyFirst.lean ====
import proofs.«179478_g15805479649410_cont_week2b_796_19_alg».proof.Proof.KBodyDefs

set_option maxRecDepth 16384

/-! The kernel body run once per control case, on any whole staging and scratch buffers at any contents: what each
buffer the case stores into holds afterwards, as the body's own payload terms of what the buffers held. The cases: whether
the point is in the first stripe of destination columns (the affine maps' rows of the point's contraction block are computed and
kept), and whether its contraction block is the stripe's first (the accumulator is overwritten), a later one (added to), or
the last (added to, then transposed into the output block). -/

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First stripe, first contraction block. -/
theorem run_first_first (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : firstStripe i) (hc2 : firstBlock i) (hc3 : ¬laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay4 (k0_pay1 (View.ld x0 (rowsSt i hc1)) x1 x2) (k0_pay2 (View.ld x0 (rowsSt i hc1)) x3 x4) x5 x6)
                ∗ (∃ f, ⌜RowsSet (k0_off1 i 0) (k0_pay1 (View.ld x0 (rowsSt i hc1)) x1 x2) y0 (a11.view.read (Elt F) f)⌝ ∗ (a11.view.loc (c : Thread nD τ) ↦[a11.view.set]{fullShare} f)) ∗ (∃ f, ⌜RowsSet (k0_off1 i 0) (k0_pay2 (View.ld x0 (rowsSt i hc1)) x3 x4) y1 (a12.view.read (Elt F) f)⌝ ∗ (a12.view.loc (c : Thread nD τ) ↦[a12.view.set]{fullShare} f))) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; swap; · iexact H9
      ipureintro
      sl_unfold_words
      exact rowsSet_writes a11 h11 y0 _ _ _ _ _ (by funext b; fin_cases b <;> rfl) (by dsimp only [rowsSt, rowsLd, k0_off1, k0_off2]; simp only [View.readAt_eq_ld, Memref.IsWhole.read_unread, ld_zero2, readCov_single_self])
    · iexists _; isplitr; swap; · iexact H10
      ipureintro
      sl_unfold_words
      exact rowsSet_writes a12 h12 y1 _ _ _ _ _ (by funext b; fin_cases b <;> rfl) (by dsimp only [rowsSt, rowsLd, k0_off1, k0_off2]; simp only [View.readAt_eq_ld, Memref.IsWhole.read_unread, ld_zero2, readCov_single_self])

set_option maxHeartbeats 4000000 in
/-- First stripe, a middle contraction block. -/
theorem run_first_mid (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : firstStripe i) (hc2 : ¬firstBlock i) (hc3 : laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay5 (k0_pay1 (View.ld x0 (rowsSt i hc1)) x1 x2) (k0_pay2 (View.ld x0 (rowsSt i hc1)) x3 x4) x5 x6 s0)
                ∗ (∃ f, ⌜RowsSet (k0_off1 i 0) (k0_pay1 (View.ld x0 (rowsSt i hc1)) x1 x2) y0 (a11.view.read (Elt F) f)⌝ ∗ (a11.view.loc (c : Thread nD τ) ↦[a11.view.set]{fullShare} f)) ∗ (∃ f, ⌜RowsSet (k0_off1 i 0) (k0_pay2 (View.ld x0 (rowsSt i hc1)) x3 x4) y1 (a12.view.read (Elt F) f)⌝ ∗ (a12.view.loc (c : Thread nD τ) ↦[a12.view.set]{fullShare} f))) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; swap; · iexact H9
      ipureintro
      sl_unfold_words
      exact rowsSet_writes a11 h11 y0 _ _ _ _ _ (by funext b; fin_cases b <;> rfl) (by dsimp only [rowsSt, rowsLd, k0_off1, k0_off2]; simp only [View.readAt_eq_ld, Memref.IsWhole.read_unread, ld_zero2, readCov_single_self])
    · iexists _; isplitr; swap; · iexact H10
      ipureintro
      sl_unfold_words
      exact rowsSet_writes a12 h12 y1 _ _ _ _ _ (by funext b; fin_cases b <;> rfl) (by dsimp only [rowsSt, rowsLd, k0_off1, k0_off2]; simp only [View.readAt_eq_ld, Memref.IsWhole.read_unread, ld_zero2, readCov_single_self])

set_option maxHeartbeats 4000000 in
/-- First stripe, last contraction block. -/
theorem run_first_last (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : firstStripe i) (hc2 : ¬firstBlock i) (hc3 : laterBlock i) (hc4 : lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare (k0_pay6 (k0_pay5 (k0_pay1 (View.ld x0 (rowsSt i hc1)) x1 x2) (k0_pay2 (View.ld x0 (rowsSt i hc1)) x3 x4) x5 x6 s0)) ∗ owns (c : Thread nD τ) a10 fullShare (k0_pay5 (k0_pay1 (View.ld x0 (rowsSt i hc1)) x1 x2) (k0_pay2 (View.ld x0 (rowsSt i hc1)) x3 x4) x5 x6 s0)
                ∗ (∃ f, ⌜RowsSet (k0_off1 i 0) (k0_pay1 (View.ld x0 (rowsSt i hc1)) x1 x2) y0 (a11.view.read (Elt F) f)⌝ ∗ (a11.view.loc (c : Thread nD τ) ↦[a11.view.set]{fullShare} f)) ∗ (∃ f, ⌜RowsSet (k0_off1 i 0) (k0_pay2 (View.ld x0 (rowsSt i hc1)) x3 x4) y1 (a12.view.read (Elt F) f)⌝ ∗ (a12.view.loc (c : Thread nD τ) ↦[a12.view.set]{fullShare} f))) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      sl_unfold_words
      exact read_writes_whole a9 _ _ zero2 _ _ _ (by dsimp only [rowsSt, rowsLd, k0_off1, k0_off2]; simp only [View.readAt_eq_ld, Memref.IsWhole.read_unread, ld_zero2, readCov_single_self])
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; swap; · iexact H9
      ipureintro
      sl_unfold_words
      exact rowsSet_writes a11 h11 y0 _ _ _ _ _ (by funext b; fin_cases b <;> rfl) (by dsimp only [rowsSt, rowsLd, k0_off1, k0_off2]; simp only [View.readAt_eq_ld, Memref.IsWhole.read_unread, ld_zero2, readCov_single_self])
    · iexists _; isplitr; swap; · iexact H10
      ipureintro
      sl_unfold_words
      exact rowsSet_writes a12 h12 y1 _ _ _ _ _ (by funext b; fin_cases b <;> rfl) (by dsimp only [rowsSt, rowsLd, k0_off1, k0_off2]; simp only [View.readAt_eq_ld, Memref.IsWhole.read_unread, ld_zero2, readCov_single_self])

end Cert.Kernel.Body
end
-- ==== Proof.KBodyLater.lean ====
import proofs.«179478_g15805479649410_cont_week2b_796_19_alg».proof.Proof.KBodyDefs

set_option maxRecDepth 16384

/-! The kernel body run once per control case, on any whole staging and scratch buffers at any contents: what each
buffer the case stores into holds afterwards, as the body's own payload terms of what the buffers held. The cases: whether
the point is in the first stripe of destination columns (the affine maps' rows of the point's contraction block are computed and
kept), and whether its contraction block is the stripe's first (the accumulator is overwritten), a later one (added to), or
the last (added to, then transposed into the output block). -/

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later stripe, first contraction block. -/
theorem run_later_first (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : ¬firstStripe i) (hc2 : firstBlock i) (hc3 : ¬laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay4 (View.ld y0 (rowsLd i)) (View.ld y1 (rowsLd i)) x5 x6)
                ∗ owns (c : Thread nD τ) a11 fullShare y0 ∗ owns (c : Thread nD τ) a12 fullShare y1) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; · ipureintro; exact h11.read_unread _
      iexact H9
    · iexists _; isplitr; · ipureintro; exact h12.read_unread _
      iexact H10

set_option maxHeartbeats 4000000 in
/-- A later stripe, a middle contraction block. -/
theorem run_later_mid (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : ¬firstStripe i) (hc2 : ¬firstBlock i) (hc3 : laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay5 (View.ld y0 (rowsLd i)) (View.ld y1 (rowsLd i)) x5 x6 s0)
                ∗ owns (c : Thread nD τ) a11 fullShare y0 ∗ owns (c : Thread nD τ) a12 fullShare y1) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; · ipureintro; exact h11.read_unread _
      iexact H9
    · iexists _; isplitr; · ipureintro; exact h12.read_unread _
      iexact H10

set_option maxHeartbeats 4000000 in
/-- A later stripe, last contraction block. -/
theorem run_later_last (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : ¬firstStripe i) (hc2 : ¬firstBlock i) (hc3 : laterBlock i) (hc4 : lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare (k0_pay6 (k0_pay5 (View.ld y0 (rowsLd i)) (View.ld y1 (rowsLd i)) x5 x6 s0)) ∗ owns (c : Thread nD τ) a10 fullShare (k0_pay5 (View.ld y0 (rowsLd i)) (View.ld y1 (rowsLd i)) x5 x6 s0)
                ∗ owns (c : Thread nD τ) a11 fullShare y0 ∗ owns (c : Thread nD τ) a12 fullShare y1) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      sl_unfold_words
      exact read_writes_whole a9 _ _ zero2 _ _ _ (by dsimp only [rowsSt, rowsLd, k0_off1, k0_off2]; simp only [View.readAt_eq_ld, Memref.IsWhole.read_unread, ld_zero2, readCov_single_self])
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; · ipureintro; exact h11.read_unread _
      iexact H9
    · iexists _; isplitr; · ipureintro; exact h12.read_unread _
      iexact H10

end Cert.Kernel.Body
end
-- ==== Proof.KFrame.lean ====
import proofs.«179478_g15805479649410_cont_week2b_796_19_alg».proof.Proof.KBodyFirst
import proofs.«179478_g15805479649410_cont_week2b_796_19_alg».proof.Proof.KBodyLater
import Idealize.ShloMosaic.Lib.Pipeline.Frame
import Idealize.ShloMosaic.Lib.Pipeline.FrameBody
import Idealize.ShloMosaic.Lib.Memref

set_option maxRecDepth 16384

/-! The frame of the word-level program: every weakly fair execution of @main terminates without a fault and leaves the
seven argument arrays as launched. Nothing is said of what any buffer holds while the region runs: every window's
staging buffer and the three scratch buffers are handed to the body at some contents and taken back at some contents, so the
body's run in each control case is only weakened to that form. The arrays the pipeline stages are inputs it never writes
back; the two arrays it does not stage are touched only by host operations that write elsewhere. -/

noncomputable section

namespace Cert.Kernel.FrameAll

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at any contents -/

/-- The eleven buffers the body is called with — seven input staging buffers, the output staging buffer, the accumulator and
    the two kept affine maps — each whole-owned at some contents. -/
def held (c : Dev nD) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16) : sProp 𝕄 :=
  iprop((∃ X, owns (c : Thread nD τ) a2 fullShare X)
      ∗ (∃ X, owns (c : Thread nD τ) a3 fullShare X)
      ∗ (∃ X, owns (c : Thread nD τ) a4 fullShare X)
      ∗ (∃ X, owns (c : Thread nD τ) a5 fullShare X)
      ∗ (∃ X, owns (c : Thread nD τ) a6 fullShare X)
      ∗ (∃ X, owns (c : Thread nD τ) a7 fullShare X)
      ∗ (∃ X, owns (c : Thread nD τ) a8 fullShare X)
      ∗ (∃ X, owns (c : Thread nD τ) a9 fullShare X)
      ∗ (∃ X, owns (c : Thread nD τ) a10 fullShare X)
      ∗ (∃ X, owns (c : Thread nD τ) a11 fullShare X)
      ∗ (∃ X, owns (c : Thread nD τ) a12 fullShare X))

/-- First stripe, first contraction block, from and to any contents. -/
theorem weak_first_first (c : Dev nD) (i : grid0.Coords) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (hc1 : firstStripe i) (hc2 : firstBlock i) (hc3 : ¬laterBlock i) (hc4 : ¬lastBlock i)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body i a2 h2 a3 h3 a4 h4 a5 h5 a6 h6 a7 h7 a8 h8 a9 h9 a10 h10 a11 h11 a12 h12) K := by
  unfold held
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%s0, H8⟩, ⟨%y0, H9⟩, ⟨%y1, H10⟩⟩, Hk⟩
  iapply (run_first_first c i a2 h2 a3 h3 a4 h4 a5 h5 a6 h6 a7 h7 a8 h8 a9 h9 a10 h10 a11 h11 a12 h12 hc1 hc2 hc3 hc4 x0 x1 x2 x3 x4 x5 x6 x7 s0 y0 y1 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, ⟨%f9, %hf9, G9⟩, ⟨%f10, %hf10, G10⟩⟩
  iapply Hk
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]
  · iexists (a11.view.read (Elt F) f9); unfold owns; iexists f9; isplitr; · ipureintro; rfl
    iexact G9
  · iexists (a12.view.read (Elt F) f10); unfold owns; iexists f10; isplitr; · ipureintro; rfl
    iexact G10

/-- First stripe, a middle contraction block, from and to any contents. -/
theorem weak_first_mid (c : Dev nD) (i : grid0.Coords) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (hc1 : firstStripe i) (hc2 : ¬firstBlock i) (hc3 : laterBlock i) (hc4 : ¬lastBlock i)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body i a2 h2 a3 h3 a4 h4 a5 h5 a6 h6 a7 h7 a8 h8 a9 h9 a10 h10 a11 h11 a12 h12) K := by
  unfold held
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%s0, H8⟩, ⟨%y0, H9⟩, ⟨%y1, H10⟩⟩, Hk⟩
  iapply (run_first_mid c i a2 h2 a3 h3 a4 h4 a5 h5 a6 h6 a7 h7 a8 h8 a9 h9 a10 h10 a11 h11 a12 h12 hc1 hc2 hc3 hc4 x0 x1 x2 x3 x4 x5 x6 x7 s0 y0 y1 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, ⟨%f9, %hf9, G9⟩, ⟨%f10, %hf10, G10⟩⟩
  iapply Hk
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]
  · iexists (a11.view.read (Elt F) f9); unfold owns; iexists f9; isplitr; · ipureintro; rfl
    iexact G9
  · iexists (a12.view.read (Elt F) f10); unfold owns; iexists f10; isplitr; · ipureintro; rfl
    iexact G10

/-- First stripe, last contraction block, from and to any contents. -/
theorem weak_first_last (c : Dev nD) (i : grid0.Coords) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (hc1 : firstStripe i) (hc2 : ¬firstBlock i) (hc3 : laterBlock i) (hc4 : lastBlock i)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body i a2 h2 a3 h3 a4 h4 a5 h5 a6 h6 a7 h7 a8 h8 a9 h9 a10 h10 a11 h11 a12 h12) K := by
  unfold held
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%s0, H8⟩, ⟨%y0, H9⟩, ⟨%y1, H10⟩⟩, Hk⟩
  iapply (run_first_last c i a2 h2 a3 h3 a4 h4 a5 h5 a6 h6 a7 h7 a8 h8 a9 h9 a10 h10 a11 h11 a12 h12 hc1 hc2 hc3 hc4 x0 x1 x2 x3 x4 x5 x6 x7 s0 y0 y1 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, ⟨%f9, %hf9, G9⟩, ⟨%f10, %hf10, G10⟩⟩
  iapply Hk
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]
  · iexists (a11.view.read (Elt F) f9); unfold owns; iexists f9; isplitr; · ipureintro; rfl
    iexact G9
  · iexists (a12.view.read (Elt F) f10); unfold owns; iexists f10; isplitr; · ipureintro; rfl
    iexact G10

/-- A later stripe, first contraction block, from and to any contents. -/
theorem weak_later_first (c : Dev nD) (i : grid0.Coords) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (hc1 : ¬firstStripe i) (hc2 : firstBlock i) (hc3 : ¬laterBlock i) (hc4 : ¬lastBlock i)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body i a2 h2 a3 h3 a4 h4 a5 h5 a6 h6 a7 h7 a8 h8 a9 h9 a10 h10 a11 h11 a12 h12) K := by
  unfold held
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%s0, H8⟩, ⟨%y0, H9⟩, ⟨%y1, H10⟩⟩, Hk⟩
  iapply (run_later_first c i a2 h2 a3 h3 a4 h4 a5 h5 a6 h6 a7 h7 a8 h8 a9 h9 a10 h10 a11 h11 a12 h12 hc1 hc2 hc3 hc4 x0 x1 x2 x3 x4 x5 x6 x7 s0 y0 y1 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, G9, G10⟩
  iapply Hk
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  iexists _; iexact G10

/-- A later stripe, a middle contraction block, from and to any contents. -/
theorem weak_later_mid (c : Dev nD) (i : grid0.Coords) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (hc1 : ¬firstStripe i) (hc2 : ¬firstBlock i) (hc3 : laterBlock i) (hc4 : ¬lastBlock i)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body i a2 h2 a3 h3 a4 h4 a5 h5 a6 h6 a7 h7 a8 h8 a9 h9 a10 h10 a11 h11 a12 h12) K := by
  unfold held
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%s0, H8⟩, ⟨%y0, H9⟩, ⟨%y1, H10⟩⟩, Hk⟩
  iapply (run_later_mid c i a2 h2 a3 h3 a4 h4 a5 h5 a6 h6 a7 h7 a8 h8 a9 h9 a10 h10 a11 h11 a12 h12 hc1 hc2 hc3 hc4 x0 x1 x2 x3 x4 x5 x6 x7 s0 y0 y1 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, G9, G10⟩
  iapply Hk
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  iexists _; iexact G10

/-- A later stripe, last contraction block, from and to any contents. -/
theorem weak_later_last (c : Dev nD) (i : grid0.Coords) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (hc1 : ¬firstStripe i) (hc2 : ¬firstBlock i) (hc3 : laterBlock i) (hc4 : lastBlock i)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body i a2 h2 a3 h3 a4 h4 a5 h5 a6 h6 a7 h7 a8 h8 a9 h9 a10 h10 a11 h11 a12 h12) K := by
  unfold held
  iintro ⟨⟨⟨%x0, H0⟩, ⟨%x1, H1⟩, ⟨%x2, H2⟩, ⟨%x3, H3⟩, ⟨%x4, H4⟩, ⟨%x5, H5⟩, ⟨%x6, H6⟩, ⟨%x7, H7⟩, ⟨%s0, H8⟩, ⟨%y0, H9⟩, ⟨%y1, H10⟩⟩, Hk⟩
  iapply (run_later_last c i a2 h2 a3 h3 a4 h4 a5 h5 a6 h6 a7 h7 a8 h8 a9 h9 a10 h10 a11 h11 a12 h12 hc1 hc2 hc3 hc4 x0 x1 x2 x3 x4 x5 x6 x7 s0 y0 y1 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G0, G1, G2, G3, G4, G5, G6, G7, G8, G9, G10⟩
  iapply Hk
  isplitl [G0]; · iexists _; iexact G0
  isplitl [G1]; · iexists _; iexact G1
  isplitl [G2]; · iexists _; iexact G2
  isplitl [G3]; · iexists _; iexact G3
  isplitl [G4]; · iexists _; iexact G4
  isplitl [G5]; · iexists _; iexact G5
  isplitl [G6]; · iexists _; iexact G6
  isplitl [G7]; · iexists _; iexact G7
  isplitl [G8]; · iexists _; iexact G8
  isplitl [G9]; · iexists _; iexact G9
  iexists _; iexact G10

/-- The body at any grid point, from and to any contents: the point's control case is read off its index (the stripe is the
    index's tens, the contraction block its units). -/
theorem weak_run (c : Dev nD) (t : Fin cfg0.N) (a2 : Memref sig .tc .vmem S10000x128 .f32) (a3 : Memref sig .tc .vmem S128x128 .f32) (a4 : Memref sig .tc .vmem S1x128 .f32) (a5 : Memref sig .tc .vmem S128x128 .f32) (a6 : Memref sig .tc .vmem S1x128 .f32) (a7 : Memref sig .tc .vmem S1000x2560 .f32) (a8 : Memref sig .tc .vmem S1000x2560 .f32) (a9 : Memref sig .tc .vmem S2560x128 .f32) (a10 : Memref sig .tc .vmem S128x2560 .f32) (a11 : Memref sig .tc .vmem S10000x128 .bf16) (a12 : Memref sig .tc .vmem S10000x128 .bf16)
    (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
    (E : Set ℕ) (K : PUnit → sProp 𝕄) :
    iprop(held (F := F) c a2 a3 a4 a5 a6 a7 a8 a9 a10 a11 a12 ∗ (held (F := F) c a2 a3 a4 a5 a6 a7 a8 a9 a10 a11 a12 -∗ K ⟨⟩))
      ⊢ wp frame (wpE (defs₀ (F := F)) Variants.none c none) E (cc0__body (grid0.coords t) a2 h2 a3 h3 a4 h4 a5 h5 a6 h6 a7 h7 a8 h8 a9 h9 a10 h10 a11 h11 a12 h12) K := by
  by_cases hs : t.val < 10
  · by_cases hz : t.val % 10 = 0
    · exact weak_first_first c (grid0.coords t) a2 a3 a4 a5 a6 a7 a8 a9 a10 a11 a12 h2 h3 h4 h5 h6 h7 h8 h9 h10 h11 h12 ((firstStripe_iff t).mpr hs) ((firstBlock_iff t).mpr hz) (fun h => (laterBlock_iff t).mp h hz) (fun h => by have := (lastBlock_iff t).mp h; omega) E K
    · by_cases hl : t.val % 10 = 9
      · exact weak_first_last c (grid0.coords t) a2 a3 a4 a5 a6 a7 a8 a9 a10 a11 a12 h2 h3 h4 h5 h6 h7 h8 h9 h10 h11 h12 ((firstStripe_iff t).mpr hs) (fun h => hz ((firstBlock_iff t).mp h)) ((laterBlock_iff t).mpr hz) ((lastBlock_iff t).mpr hl) E K
      · exact weak_first_mid c (grid0.coords t) a2 a3 a4 a5 a6 a7 a8 a9 a10 a11 a12 h2 h3 h4 h5 h6 h7 h8 h9 h10 h11 h12 ((firstStripe_iff t).mpr hs) (fun h => hz ((firstBlock_iff t).mp h)) ((laterBlock_iff t).mpr hz) (fun h => hl ((lastBlock_iff t).mp h)) E K
  · by_cases hz : t.val % 10 = 0
    · exact weak_later_first c (grid0.coords t) a2 a3 a4 a5 a6 a7 a8 a9 a10 a11 a12 h2 h3 h4 h5 h6 h7 h8 h9 h10 h11 h12 (fun h => hs ((firstStripe_iff t).mp h)) ((firstBlock_iff t).mpr hz) (fun h => (laterBlock_iff t).mp h hz) (fun h => by have := (lastBlock_iff t).mp h; omega) E K
    · by_cases hl : t.val % 10 = 9
      · exact weak_later_last c (grid0.coords t) a2 a3 a4 a5 a6 a7 a8 a9 a10 a11 a12 h2 h3 h4 h5 h6 h7 h8 h9 h10 h11 h12 (fun h => hs ((firstStripe_iff t).mp h)) (fun h => hz ((firstBlock_iff t).mp h)) ((laterBlock_iff t).mpr hz) ((lastBlock_iff t).mpr hl) E K
      · exact weak_later_mid c (grid0.coords t) a2 a3 a4 a5 a6 a7 a8 a9 a10 a11 a12 h2 h3 h4 h5 h6 h7 h8 h9 h10 h11 h12 (fun h => hs ((firstStripe_iff t).mp h)) (fun h => hz ((firstBlock_iff t).mp h)) ((laterBlock_iff t).mpr hz) (fun h => hl ((lastBlock_iff t).mp h)) E K

/-! ## The pipeline's proof data -/

variable (m : (ℓ : Loc nD τ sig) → Buf (Elt F) ℓ) (ρ : Dev nD → PrngReg)

/-- Every window is forgotten: the claim reads no staging buffer's contents. -/
def forgetsAll : Fin 8 → Bool := fun _ => true

/-- The proof data on core `c`: the arrays as the region finds them; after the body every window's buffer at contents
    nothing names; the invariant the scratch buffers at some contents and the generator register at some state; nothing
    owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant with the three scratch buffers as whole memrefs owned at some contents. -/
theorem PhiA_eq (c : Dev nD) :
    (Pipeline.ΦA spec0 c : sProp 𝕄)
      = iprop(((∃ X, owns (c : Thread nD τ) (Memref.whole cc0_scratch0) fullShare X)
          ∗ (∃ X, owns (c : Thread nD τ) (Memref.whole cc0_scratch1) fullShare X)
          ∗ (∃ X, owns (c : Thread nD τ) (Memref.whole cc0_scratch2) fullShare X)) ∗ (∃ r, prngReg c r)) := by
  unfold Pipeline.ΦA; rw [scopedRest0_eq]; simp only [owns_whole]; try rfl

/-! ## The body obligation -/

/-- What the body is called with at point `t`: the invariant, what the core owes (nothing), and every window's current
    staging buffer at some contents, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X))

/-- and what it returns: the same at the next point. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X))

set_option maxHeartbeats 1600000 in
/-- The body at any point: the invariant is opened into the three scratch buffers, the body runs from the eleven buffers at
    whatever they hold, and the invariant is closed again over whatever the scratch then holds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2⟩, Hg⟩, Ho, W0, W1, W2, W3, W4, W5, W6, W7⟩
  iapply (weak_run c t (st0_0 t) (st0_1 t) (st0_2 t) (st0_3 t) (st0_4 t) (st0_5 t) (st0_6 t) (st0_7 t) (Memref.whole cc0_scratch0) (Memref.whole cc0_scratch1) (Memref.whole cc0_scratch2) _ _ _ _ _ _ _ _ _ _ _ Set.univ _)
  isplitl [W0 W1 W2 W3 W4 W5 W6 W7 S0 S1 S2]
  · unfold held
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    iexact S2
  unfold held
  iintro ⟨W0, W1, W2, W3, W4, W5, W6, W7, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

/-- The library's body obligation at every point, every window forgotten. -/
theorem body_obligation (c : Dev nD) : BodyObligation (dats (F := F) m 0 c) (defs₀ (F := F)) Variants.none () Set.univ forgetsAll := fun t => by
  rw [bigSep_W0, bigSep_W0]
  exact sound_body m c t

/-! ## The run and the frame -/

set_option backward.isDefEq.respectTransparency.types false in
/-- Every weakly fair execution of @main on the TensorCores terminates, and every final state has every array the pipeline
    stages as an input unchanged and every other unscoped buffer at its region-entry contents; nothing is stated of the
    output array. -/
theorem run_main : θ_run defs (onTc (τ := τ) (main (F := F))) (s₀ m ρ) (Pipeline.RDat.FramePost (cfgs 0) (fun c => (dats m 0 c).toRForget forgetsAll) (V m)) :=
  Pipeline.RDat.θ_run_frame cfgs (0 : Fin 1) launch0 defs₀ Variants.none (fun c => (dats m 0 c).toRForget forgetsAll) m ρ main
    (hbody := fun c => (body_obligation m c).toRForget) (hshare := fun c => ((dats m 0 c).toRForget forgetsAll).share_full fun _ => rfl)
    (howed := fun _ _ => rfl) (V := V m) (hmain := hmain m Variants.none) (hA := A_eq m) (hΦ := fun _ _ => rfl)

/-- THE FRAME: the seven argument arrays are as launched. Five are staged as inputs (windows 5, 6, 0, 1, 3), which the
    pipeline only reads; the other two are read only by host operations before the region, which write elsewhere. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r (h : Pipeline.RDat.FramePost (cfgs 0) (fun c => (dats m 0 c).toRForget forgetsAll) (V m) r) c =>
    ⟨(Pipeline.RDat.FramePost.arr_in h c 5 rfl).trans ((A_eq m c 5).trans (V_main_arg0 m c)),
      (Pipeline.RDat.FramePost.arr_in h c 6 rfl).trans ((A_eq m c 6).trans (V_main_arg1 m c)),
      (Pipeline.RDat.FramePost.arr_in h c 0 rfl).trans ((A_eq m c 0).trans (V_main_arg2 m c)),
      (Pipeline.RDat.FramePost.arr_in h c 1 rfl).trans ((A_eq m c 1).trans (V_main_arg3 m c)),
      ((h c).2 main_arg4 (Pipeline.mem_restRefs_of main_arg4 (by decide) (by decide))).trans (V_main_arg4 m c),
      (Pipeline.RDat.FramePost.arr_in h c 3 rfl).trans ((A_eq m c 3).trans (V_main_arg5 m c)),
      ((h c).2 main_arg6 (Pipeline.mem_restRefs_of main_arg6 (by decide) (by decide))).trans (V_main_arg6 m c)⟩) (run_main m ρ)

end Cert.Kernel.FrameAll

end
-- ==== Proof.BodyDefs.lean ====
import proofs.«179478_g15805479649410_cont_week2b_796_19_alg».proof.Proof.Gen.KernelIdeal.Launch
import proofs.«179478_g15805479649410_cont_week2b_796_19_alg».proof.Proof.Gen.KernelIdeal.Skeleton
import proofs.«179478_g15805479649410_cont_week2b_796_19_alg».proof.Proof.Gen.KernelIdeal.Points
import proofs.«179478_g15805479649410_cont_week2b_796_19_alg».proof.Proof.Gen.KernelIdeal.Frame
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first stripe of destination columns: the affine maps are computed and kept there. -/
abbrev firstStripe (i : grid0.Coords) : Prop := k0_cond1 i = 1#1
/-- The first contraction block of a stripe: the accumulator is overwritten. -/
abbrev firstBlock (i : grid0.Coords) : Prop :=
  (Scalar.cmpi .ne (Scalar.extui (Scalar.cmpi .eq (BitVec.ofNat 32 (i 1).val) 0#32)) 0#32) = 1#1
/-- A later contraction block: the accumulator is added to. -/
abbrev laterBlock (i : grid0.Coords) : Prop :=
  (Scalar.cmpi .ne (Scalar.extui (Scalar.cmpi .sgt (BitVec.ofNat 32 (i 1).val) 0#32)) 0#32) = 1#1
/-- The last contraction block: the accumulator is transposed into the output block. -/
abbrev lastBlock (i : grid0.Coords) : Prop := k0_cond4 i = 1#1

theorem firstStripe_iff : ∀ t : Fin cfg0.N, firstStripe (grid0.coords t) ↔ t.val < 10 :=
  (by decide +kernel : ∀ t : Fin grid0.N, firstStripe (grid0.coords t) ↔ t.val < 10)
theorem firstBlock_iff : ∀ t : Fin cfg0.N, firstBlock (grid0.coords t) ↔ t.val % 10 = 0 :=
  (by decide +kernel : ∀ t : Fin grid0.N, firstBlock (grid0.coords t) ↔ t.val % 10 = 0)
theorem laterBlock_iff : ∀ t : Fin cfg0.N, laterBlock (grid0.coords t) ↔ t.val % 10 ≠ 0 :=
  (by decide +kernel : ∀ t : Fin grid0.N, laterBlock (grid0.coords t) ↔ t.val % 10 ≠ 0)
theorem lastBlock_iff : ∀ t : Fin cfg0.N, lastBlock (grid0.coords t) ↔ t.val % 10 = 9 :=
  (by decide +kernel : ∀ t : Fin grid0.N, lastBlock (grid0.coords t) ↔ t.val % 10 = 9)

theorem zero2 : (![0, 0] : Fin 2 → ℕ) = fun _ => 0 := funext fun a => by fin_cases a <;> rfl

/-- A load through the rectangle of the one piece written reads that piece's payload. -/
theorem readCov_single_self {sig' : RefSig} {κ : Kind} {sp : Space} {S : Shape} {e : EltTy} [∀ e, Nonempty (Elt F e)]
    (v : View sig' κ sp S e) (r : Rect S) (w : r.shape.Idx → Elt F e) :
    v.readCov [(⟨r, w⟩ : View.Piece (Elt F) S e)] r.toLoadRect = w := by
  rw [View.readCov_eq_canon']; funext j; exact View.canon_cons_emb r w [] j

/-- The rows of contraction block `k` as the first stripe stores them, and as every point loads them. -/
abbrev rowsSt (i : grid0.Coords) (h : firstStripe i) : Rect S10000x128 := Rect.unit (s := S10000x128) (k0_off1 i) S1000x128.size (k0_off1_inb i h)
abbrev rowsLd (i : grid0.Coords) : Rect S10000x128 := Rect.unit (s := S10000x128) (k0_off2 i) S1000x128.size (k0_off2_inb i)

/-- `Y'` is `Y` with the 1000 rows from row `o` on replaced by `P`. -/
def RowsSet (o : ℕ) (P : Vec F S1000x128 .bf16) (Y Y' : Vec F S10000x128 .bf16) : Prop :=
  (∀ (y : S10000x128.Idx) (x : S1000x128.Idx), (y 0).val = o + (x 0).val → (y 1).val = (x 1).val → Y' y = P x)
  ∧ (∀ y : S10000x128.Idx, ((y 0).val < o ∨ o + 1000 ≤ (y 0).val) → Y' y = Y y)

/-- One store of the 1000 rows from row `o` on into a whole (10000, 128) buffer holding `Y` leaves `Y` with those rows replaced. -/
theorem rowsSet_writes (a : Memref sig .tc .vmem S10000x128 .bf16) (h : a.IsWhole) (Y : Vec F S10000x128 .bf16)
    (off : Fin 2 → ℕ) (inb : ∀ b, off b + S1000x128.size b ≤ S10000x128.size b) (W P : Vec F S1000x128 .bf16) (o : ℕ)
    (hoff : off = ![o, 0]) (hW : W = P) :
    RowsSet o P Y (a.view.read (Elt F) (a.view.writes (Elt F) (h.unread Y)
      [(⟨Rect.unit (s := S10000x128) off S1000x128.size inb, W⟩ : View.Piece (Elt F) S10000x128 .bf16)])) := by
  subst hW
  refine ⟨fun y x hx0 hx1 => ?_, fun y hy => ?_⟩
  · exact View.read_writes_cons_rows_of_mem a.view (h.unread Y) inb W [] y x hoff hx0 hx1
  · rw [View.read_writes_cons_rows_of_not_mem a.view (h.unread Y) inb W [] y hoff (W := 1000) rfl hy, View.writes_nil, h.read_unread]

/-- One store of a whole block into a buffer leaves the block stored. -/
theorem read_writes_whole {S : Shape} {e : EltTy} [∀ e, Nonempty (Elt F e)] (a : Memref sig .tc .vmem S e) (f : a.view.ty.Contents (Elt F))
    (off : Fin S.rank → ℕ) (hz : off = fun _ => 0) (inb : ∀ b, off b + S.size b ≤ S.size b) (W P : S.Idx → Elt F e) (hW : W = P) :
    a.view.read (Elt F) (a.view.writes (Elt F) f [(⟨Rect.unit off S.size inb, W⟩ : View.Piece (Elt F) S e)]) = P := by
  subst hW
  rw [View.read_writes_eq_canon _ _ _ (fun y => ⟨_, List.mem_singleton_self _, View.mem_set_unit_zero hz inb y⟩), View.canon_unit_zero hz]

/-- A load of a whole rank-2 block reads the block. -/
theorem ld_zero2 {d : Fin 2 → ℕ} {e : EltTy} (X : (⟨2, d⟩ : Shape).Idx → Elt F e)
    (inb : ∀ b, (![0, 0] : Fin 2 → ℕ) b + d b ≤ d b) :
    View.ld X (Rect.unit (s := ⟨2, d⟩) ![0, 0] d inb) = X := View.ld_unit_zero (S := ⟨2, d⟩) zero2 inb X

end Cert.KernelIdeal.Body
end
-- ==== Proof.BodyFirst.lean ====
import proofs.«179478_g15805479649410_cont_week2b_796_19_alg».proof.Proof.BodyDefs

set_option maxRecDepth 16384

/-! The kernel body run once per control case, on any whole staging and scratch buffers at any contents: what each
buffer the case stores into holds afterwards, as the body's own payload terms of what the buffers held. The cases: whether
the point is in the first stripe of destination columns (the affine maps' rows of the point's contraction block are computed and
kept), and whether its contraction block is the stripe's first (the accumulator is overwritten), a later one (added to), or
the last (added to, then transposed into the output block). -/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- First stripe, first contraction block. -/
theorem run_first_first (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : firstStripe i) (hc2 : firstBlock i) (hc3 : ¬laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay4 (k0_pay1 (View.ld x0 (rowsSt i hc1)) x1 x2) (k0_pay2 (View.ld x0 (rowsSt i hc1)) x3 x4) x5 x6)
                ∗ (∃ f, ⌜RowsSet (k0_off1 i 0) (k0_pay1 (View.ld x0 (rowsSt i hc1)) x1 x2) y0 (a11.view.read (Elt F) f)⌝ ∗ (a11.view.loc (c : Thread nD τ) ↦[a11.view.set]{fullShare} f)) ∗ (∃ f, ⌜RowsSet (k0_off1 i 0) (k0_pay2 (View.ld x0 (rowsSt i hc1)) x3 x4) y1 (a12.view.read (Elt F) f)⌝ ∗ (a12.view.loc (c : Thread nD τ) ↦[a12.view.set]{fullShare} f))) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; swap; · iexact H9
      ipureintro
      sl_unfold_words
      exact rowsSet_writes a11 h11 y0 _ _ _ _ _ (by funext b; fin_cases b <;> rfl) (by dsimp only [rowsSt, rowsLd, k0_off1, k0_off2]; simp only [View.readAt_eq_ld, Memref.IsWhole.read_unread, ld_zero2, readCov_single_self])
    · iexists _; isplitr; swap; · iexact H10
      ipureintro
      sl_unfold_words
      exact rowsSet_writes a12 h12 y1 _ _ _ _ _ (by funext b; fin_cases b <;> rfl) (by dsimp only [rowsSt, rowsLd, k0_off1, k0_off2]; simp only [View.readAt_eq_ld, Memref.IsWhole.read_unread, ld_zero2, readCov_single_self])

set_option maxHeartbeats 4000000 in
/-- First stripe, a middle contraction block. -/
theorem run_first_mid (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : firstStripe i) (hc2 : ¬firstBlock i) (hc3 : laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay5 (k0_pay1 (View.ld x0 (rowsSt i hc1)) x1 x2) (k0_pay2 (View.ld x0 (rowsSt i hc1)) x3 x4) x5 x6 s0)
                ∗ (∃ f, ⌜RowsSet (k0_off1 i 0) (k0_pay1 (View.ld x0 (rowsSt i hc1)) x1 x2) y0 (a11.view.read (Elt F) f)⌝ ∗ (a11.view.loc (c : Thread nD τ) ↦[a11.view.set]{fullShare} f)) ∗ (∃ f, ⌜RowsSet (k0_off1 i 0) (k0_pay2 (View.ld x0 (rowsSt i hc1)) x3 x4) y1 (a12.view.read (Elt F) f)⌝ ∗ (a12.view.loc (c : Thread nD τ) ↦[a12.view.set]{fullShare} f))) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; swap; · iexact H9
      ipureintro
      sl_unfold_words
      exact rowsSet_writes a11 h11 y0 _ _ _ _ _ (by funext b; fin_cases b <;> rfl) (by dsimp only [rowsSt, rowsLd, k0_off1, k0_off2]; simp only [View.readAt_eq_ld, Memref.IsWhole.read_unread, ld_zero2, readCov_single_self])
    · iexists _; isplitr; swap; · iexact H10
      ipureintro
      sl_unfold_words
      exact rowsSet_writes a12 h12 y1 _ _ _ _ _ (by funext b; fin_cases b <;> rfl) (by dsimp only [rowsSt, rowsLd, k0_off1, k0_off2]; simp only [View.readAt_eq_ld, Memref.IsWhole.read_unread, ld_zero2, readCov_single_self])

set_option maxHeartbeats 4000000 in
/-- First stripe, last contraction block. -/
theorem run_first_last (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : firstStripe i) (hc2 : ¬firstBlock i) (hc3 : laterBlock i) (hc4 : lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare (k0_pay6 (k0_pay5 (k0_pay1 (View.ld x0 (rowsSt i hc1)) x1 x2) (k0_pay2 (View.ld x0 (rowsSt i hc1)) x3 x4) x5 x6 s0)) ∗ owns (c : Thread nD τ) a10 fullShare (k0_pay5 (k0_pay1 (View.ld x0 (rowsSt i hc1)) x1 x2) (k0_pay2 (View.ld x0 (rowsSt i hc1)) x3 x4) x5 x6 s0)
                ∗ (∃ f, ⌜RowsSet (k0_off1 i 0) (k0_pay1 (View.ld x0 (rowsSt i hc1)) x1 x2) y0 (a11.view.read (Elt F) f)⌝ ∗ (a11.view.loc (c : Thread nD τ) ↦[a11.view.set]{fullShare} f)) ∗ (∃ f, ⌜RowsSet (k0_off1 i 0) (k0_pay2 (View.ld x0 (rowsSt i hc1)) x3 x4) y1 (a12.view.read (Elt F) f)⌝ ∗ (a12.view.loc (c : Thread nD τ) ↦[a12.view.set]{fullShare} f))) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      sl_unfold_words
      exact read_writes_whole a9 _ _ zero2 _ _ _ (by dsimp only [rowsSt, rowsLd, k0_off1, k0_off2]; simp only [View.readAt_eq_ld, Memref.IsWhole.read_unread, ld_zero2, readCov_single_self])
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; swap; · iexact H9
      ipureintro
      sl_unfold_words
      exact rowsSet_writes a11 h11 y0 _ _ _ _ _ (by funext b; fin_cases b <;> rfl) (by dsimp only [rowsSt, rowsLd, k0_off1, k0_off2]; simp only [View.readAt_eq_ld, Memref.IsWhole.read_unread, ld_zero2, readCov_single_self])
    · iexists _; isplitr; swap; · iexact H10
      ipureintro
      sl_unfold_words
      exact rowsSet_writes a12 h12 y1 _ _ _ _ _ (by funext b; fin_cases b <;> rfl) (by dsimp only [rowsSt, rowsLd, k0_off1, k0_off2]; simp only [View.readAt_eq_ld, Memref.IsWhole.read_unread, ld_zero2, readCov_single_self])

end Cert.KernelIdeal.Body
end
-- ==== Proof.BodyLater.lean ====
import proofs.«179478_g15805479649410_cont_week2b_796_19_alg».proof.Proof.BodyDefs

set_option maxRecDepth 16384

/-! The kernel body run once per control case, on any whole staging and scratch buffers at any contents: what each
buffer the case stores into holds afterwards, as the body's own payload terms of what the buffers held. The cases: whether
the point is in the first stripe of destination columns (the affine maps' rows of the point's contraction block are computed and
kept), and whether its contraction block is the stripe's first (the accumulator is overwritten), a later one (added to), or
the last (added to, then transposed into the output block). -/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later stripe, first contraction block. -/
theorem run_later_first (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : ¬firstStripe i) (hc2 : firstBlock i) (hc3 : ¬laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay4 (View.ld y0 (rowsLd i)) (View.ld y1 (rowsLd i)) x5 x6)
                ∗ owns (c : Thread nD τ) a11 fullShare y0 ∗ owns (c : Thread nD τ) a12 fullShare y1) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; · ipureintro; exact h11.read_unread _
      iexact H9
    · iexists _; isplitr; · ipureintro; exact h12.read_unread _
      iexact H10

set_option maxHeartbeats 4000000 in
/-- A later stripe, a middle contraction block. -/
theorem run_later_mid (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : ¬firstStripe i) (hc2 : ¬firstBlock i) (hc3 : laterBlock i) (hc4 : ¬lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare x7 ∗ owns (c : Thread nD τ) a10 fullShare (k0_pay5 (View.ld y0 (rowsLd i)) (View.ld y1 (rowsLd i)) x5 x6 s0)
                ∗ owns (c : Thread nD τ) a11 fullShare y0 ∗ owns (c : Thread nD τ) a12 fullShare y1) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      exact h9.read_unread _
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; · ipureintro; exact h11.read_unread _
      iexact H9
    · iexists _; isplitr; · ipureintro; exact h12.read_unread _
      iexact H10

set_option maxHeartbeats 4000000 in
/-- A later stripe, last contraction block. -/
theorem run_later_last (c : Dev nD) (i : grid0.Coords) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S1000x2560 .f32) (h7 : a7.IsWhole) (a8 : Memref sig .tc .vmem S1000x2560 .f32) (h8 : a8.IsWhole) (a9 : Memref sig .tc .vmem S2560x128 .f32) (h9 : a9.IsWhole) (a10 : Memref sig .tc .vmem S128x2560 .f32) (h10 : a10.IsWhole) (a11 : Memref sig .tc .vmem S10000x128 .bf16) (h11 : a11.IsWhole) (a12 : Memref sig .tc .vmem S10000x128 .bf16) (h12 : a12.IsWhole)
    (hc1 : ¬firstStripe i) (hc2 : ¬firstBlock i) (hc3 : laterBlock i) (hc4 : lastBlock i)
    (x0 : Vec F S10000x128 .f32) (x1 : Vec F S128x128 .f32) (x2 : Vec F S1x128 .f32) (x3 : Vec F S128x128 .f32) (x4 : Vec F S1x128 .f32)
    (x5 x6 : Vec F S1000x2560 .f32) (x7 : Vec F S2560x128 .f32) (s0 : Vec F S128x2560 .f32) (y0 y1 : Vec F S10000x128 .bf16)
    (E : Set ℕ) (K : PUnit → sProp 𝕄) :
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
            ∗ owns (c : Thread nD τ) a9 fullShare x7 ∗ owns (c : Thread nD τ) a10 fullShare s0
            ∗ owns (c : Thread nD τ) a11 fullShare y0 ∗ owns (c : Thread nD τ) a12 fullShare y1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6
                ∗ owns (c : Thread nD τ) a9 fullShare (k0_pay6 (k0_pay5 (View.ld y0 (rowsLd i)) (View.ld y1 (rowsLd i)) x5 x6 s0)) ∗ owns (c : Thread nD τ) a10 fullShare (k0_pay5 (View.ld y0 (rowsLd i)) (View.ld y1 (rowsLd i)) x5 x6 s0)
                ∗ owns (c : Thread nD τ) a11 fullShare y0 ∗ owns (c : Thread nD τ) a12 fullShare y1) -∗ K ⟨⟩))
          ⊢ wp frame (wpE (defs₀ (F := F)) Variants.none c none) E (cc0__body i a2 h2 a3 h3 a4 h4 a5 h5 a6 h6 a7 h7 a8 h8 a9 h9 a10 h10 a11 h11 a12 h12) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6
    obtain rfl := h9.eq_unread hf7; obtain rfl := h10.eq_unread hf8
    obtain rfl := h11.eq_unread hf9; obtain rfl := h12.eq_unread hf10
    sl_exec (disch := first | exact hc1 | exact hc2 | exact hc3 | exact hc4)
    sl_step
    iapply Hk
    isplitl [H0]; · iexists _; isplitr; · ipureintro; exact h2.read_unread _
                    iexact H0
    isplitl [H1]; · iexists _; isplitr; · ipureintro; exact h3.read_unread _
                    iexact H1
    isplitl [H2]; · iexists _; isplitr; · ipureintro; exact h4.read_unread _
                    iexact H2
    isplitl [H3]; · iexists _; isplitr; · ipureintro; exact h5.read_unread _
                    iexact H3
    isplitl [H4]; · iexists _; isplitr; · ipureintro; exact h6.read_unread _
                    iexact H4
    isplitl [H5]; · iexists _; isplitr; · ipureintro; exact h7.read_unread _
                    iexact H5
    isplitl [H6]; · iexists _; isplitr; · ipureintro; exact h8.read_unread _
                    iexact H6
    isplitl [H7]
    · iexists _; isplitr; swap; · iexact H7
      ipureintro
      sl_unfold_words
      exact read_writes_whole a9 _ _ zero2 _ _ _ (by dsimp only [rowsSt, rowsLd, k0_off1, k0_off2]; simp only [View.readAt_eq_ld, Memref.IsWhole.read_unread, ld_zero2, readCov_single_self])
    isplitl [H8]
    · iexists _; isplitr; swap; · iexact H8
      ipureintro
      sl_unfold_words
      exact read_writes_whole a10 _ _ zero2 _ _ _ (by dsimp only [rowsSt, rowsLd, k0_off1, k0_off2]; simp only [View.readAt_eq_ld, Memref.IsWhole.read_unread, ld_zero2, readCov_single_self])
    isplitl [H9]
    · iexists _; isplitr; · ipureintro; exact h11.read_unread _
      iexact H9
    · iexists _; isplitr; · ipureintro; exact h12.read_unread _
      iexact H10

end Cert.KernelIdeal.Body
end
-- ==== Proof.BlockSum.lean ====
import Mathlib.Data.EReal.Inv
import Mathlib.Algebra.BigOperators.Group.Finset.Basic
import Mathlib.Algebra.BigOperators.Fin
import Mathlib.Logic.Equiv.Fin.Basic

open Finset BigOperators

noncomputable section

namespace Cert.RelConv

/-- Row 1000*k + i of a 10000-row axis, from its block k and its place i inside the block. -/
def rowOf (k : Fin 10) (i : Fin 1000) : Fin 10000 := ⟨1000 * k.val + i.val, by omega⟩

/-- One contraction block's contribution to an output entry: the two relations' partial dot
products over that block's 1000 rows. -/
def blockTerm (f g : Fin 10000 → EReal) (k : Fin 10) : EReal :=
  (∑ i : Fin 1000, f (rowOf k i)) + ∑ i : Fin 1000, g (rowOf k i)

/-- The running sum in the order it is accumulated: block 0 is stored, each later block is added
on the right. -/
def runSum (f g : Fin 10000 → EReal) : (k : ℕ) → k < 10 → EReal
  | 0, h => blockTerm f g ⟨0, h⟩
  | k + 1, h => runSum f g k (by omega) + blockTerm f g ⟨k + 1, h⟩

/-- The running sum after block k is the sum of the first k+1 block terms. -/
theorem runSum_eq_sum (f g : Fin 10000 → EReal) :
    ∀ (k : ℕ) (h : k < 10),
      runSum f g k h = ∑ j : Fin (k + 1), blockTerm f g ⟨j.val, by omega⟩
  | 0, h => by
      simp [runSum]
  | k + 1, h => by
      rw [runSum, runSum_eq_sum f g k (by omega)]
      symm
      rw [Fin.sum_univ_castSucc]
      rfl

/-- Summing over blocks and then over places inside a block visits every row exactly once. -/
theorem sum_rowOf (f : Fin 10000 → EReal) :
    ∑ k : Fin 10, ∑ i : Fin 1000, f (rowOf k i) = ∑ I : Fin 10000, f I := by
  rw [← Fintype.sum_prod_type']
  refine Fintype.sum_equiv (finProdFinEquiv (m := 10) (n := 1000)) _ _ (fun p => ?_)
  congr 1
  apply Fin.ext
  simp [rowOf, finProdFinEquiv]
  omega

theorem runSum_last (f g : Fin 10000 → EReal) :
    runSum f g 9 (by omega) = (0 + ∑ I : Fin 10000, f I) + ∑ I : Fin 10000, g I := by
  rw [runSum_eq_sum f g 9 (by omega)]
  show ∑ j : Fin 10, blockTerm f g j = _
  simp only [blockTerm]
  rw [Finset.sum_add_distrib, sum_rowOf f, sum_rowOf g, zero_add]

/-- The affine map of one relation: (x W^T + b) at row I, column o. -/
def lin (x : Fin 10000 → Fin 128 → EReal) (W : Fin 128 → Fin 128 → EReal) (b : Fin 128 → EReal)
    (I : Fin 10000) (o : Fin 128) : EReal :=
  (∑ d : Fin 128, x I d * W o d) + b o

/-- The reference's value at (J, o): zero, plus A0^T (x W0^T + b0), plus A1^T (x W1^T + b1). -/
def conv (A0 A1 : Fin 10000 → Fin 10000 → EReal) (x : Fin 10000 → Fin 128 → EReal)
    (W0 : Fin 128 → Fin 128 → EReal) (b0 : Fin 128 → EReal)
    (W1 : Fin 128 → Fin 128 → EReal) (b1 : Fin 128 → EReal)
    (J : Fin 10000) (o : Fin 128) : EReal :=
  (0 + ∑ I : Fin 10000, A0 I J * lin x W0 b0 I o) + ∑ I : Fin 10000, A1 I J * lin x W1 b1 I o

theorem runSum_conv (A0 A1 : Fin 10000 → Fin 10000 → EReal) (x : Fin 10000 → Fin 128 → EReal)
    (W0 : Fin 128 → Fin 128 → EReal) (b0 : Fin 128 → EReal)
    (W1 : Fin 128 → Fin 128 → EReal) (b1 : Fin 128 → EReal)
    (J : Fin 10000) (o : Fin 128) :
    runSum (fun I => lin x W0 b0 I o * A0 I J) (fun I => lin x W1 b1 I o * A1 I J) 9 (by omega)
      = conv A0 A1 x W0 b0 W1 b1 J o := by
  rw [runSum_last]
  simp only [conv, mul_comm]

end Cert.RelConv

end
-- ==== Proof.StepDefs.lean ====
import proofs.«179478_g15805479649410_cont_week2b_796_19_alg».proof.Proof.Gen.KernelIdeal.Frame
import proofs.«179478_g15805479649410_cont_week2b_796_19_alg».proof.Proof.BlockSum
import Idealize.ShloMosaic.Lib.ValueIdx

noncomputable section

namespace Cert.KernelIdeal.Step

open Cert.KernelIdeal Cert.KernelIdeal.Gen Cert.RelConv
open Idealize.ShloMosaic Idealize.ShloMosaic.TcCoe Idealize.ShloMosaic.ValueIdx

variable (m : (ℓ : Loc nD τ sig) → Buf (Elt Ideal) ℓ) (c : Dev nD)

/-! ## The argument arrays as functions of coordinates -/

/-- The two adjacencies, `A_r[I, J]`: source node `I`, destination node `J`. -/
def kA0 (I J : Fin 10000) : EReal := (m ((c.tc : Thread nD τ).loc main_arg0) : (⟨S10000x10000, .f32⟩ : BufTy).Contents (Elt Ideal)) (ix2 I J)
def kA1 (I J : Fin 10000) : EReal := (m ((c.tc : Thread nD τ).loc main_arg1) : (⟨S10000x10000, .f32⟩ : BufTy).Contents (Elt Ideal)) (ix2 I J)
/-- The node features `x[I, d]`. -/
def kX (I : Fin 10000) (d : Fin 128) : EReal := (m ((c.tc : Thread nD τ).loc main_arg2) : (⟨S10000x128, .f32⟩ : BufTy).Contents (Elt Ideal)) (ix2 I d)
/-- The two relations' weights `W_r[o, d]` and biases `b_r[o]`. -/
def kW0 (o d : Fin 128) : EReal := (m ((c.tc : Thread nD τ).loc main_arg3) : (⟨S128x128, .f32⟩ : BufTy).Contents (Elt Ideal)) (ix2 o d)
def kB0 (o : Fin 128) : EReal := (m ((c.tc : Thread nD τ).loc main_arg4) : (⟨S128, .f32⟩ : BufTy).Contents (Elt Ideal)) (ix1 o)
def kW1 (o d : Fin 128) : EReal := (m ((c.tc : Thread nD τ).loc main_arg5) : (⟨S128x128, .f32⟩ : BufTy).Contents (Elt Ideal)) (ix2 o d)
def kB1 (o : Fin 128) : EReal := (m ((c.tc : Thread nD τ).loc main_arg6) : (⟨S128, .f32⟩ : BufTy).Contents (Elt Ideal)) (ix1 o)

/-- The two relations' affine maps of the features, `(x W_r^T + b_r)[I, o]`. -/
def lin0 (I : Fin 10000) (o : Fin 128) : EReal := lin (kX m c) (kW0 m c) (kB0 m c) I o
def lin1 (I : Fin 10000) (o : Fin 128) : EReal := lin (kX m c) (kW1 m c) (kB1 m c) I o

/-- The value the result holds at destination node `J`, feature `o`. -/
def outVal (J : Fin 10000) (o : Fin 128) : EReal :=
  conv (kA0 m c) (kA1 m c) (kX m c) (kW0 m c) (kB0 m c) (kW1 m c) (kB1 m c) J o
/-- The result array. -/
def outArr : (⟨S10000x128, .f32⟩ : BufTy).Contents (Elt Ideal) := fun idx => outVal m c (idx 0) (idx 1)

/-- The summands of the two relations' contractions at output entry `(J, o)`, as the kernel multiplies them. -/
def term0 (J : Fin 10000) (o : Fin 128) (I : Fin 10000) : EReal := lin0 m c I o * kA0 m c I J
def term1 (J : Fin 10000) (o : Fin 128) (I : Fin 10000) : EReal := lin1 m c I o * kA1 m c I J

theorem runSum_outVal (J : Fin 10000) (o : Fin 128) : runSum (term0 m c J o) (term1 m c J o) 9 (by omega) = outVal m c J o :=
  runSum_conv _ _ _ _ _ _ _ J o

/-! ## The grid -/

/-- The contraction block of point `t`, and the first destination node of its stripe. -/
def kOf (t : Fin cfg0.N) : Fin 10 := ⟨t.val % 10, Nat.mod_lt _ (by decide)⟩
def col0 (n : ℕ) : ℕ := 2560 * (n / 10)

/-! ## What the scratch buffers hold between points

Before point `n` (after point `n - 1`): every row of the two affine maps computed so far — rows below `1000 n`, all of
them from the second stripe on — is in place; and, inside a stripe (`n` not a multiple of 10), the accumulator holds, in
each column that is a destination node, the running sum over the stripe's contraction blocks done so far. Nothing is said of
the accumulator's columns past the last destination node. -/
def Inv (n : ℕ) (s0 : Vec Ideal S128x2560 .f32) (y0 y1 : Vec Ideal S10000x128 .bf16) : Prop :=
  (∀ (r : Fin 10000) (o : Fin 128), r.val < 1000 * n → y0 (ix2 r o) = lin0 m c r o ∧ y1 (ix2 r o) = lin1 m c r o)
  ∧ (∀ (hk : n % 10 ≠ 0) (o : Fin 128) (j : Fin 2560) (hJ : col0 n + j.val < 10000),
      s0 (ix2 o j) = runSum (term0 m c ⟨col0 n + j.val, hJ⟩ o) (term1 m c ⟨col0 n + j.val, hJ⟩ o) (n % 10 - 1) (by omega))

/-- The adjacency blocks as the body finds them at point `t`: the block's part inside the array, anything past the
    last destination node. -/
def a0blk (t : Fin cfg0.N) (d : Vec Ideal S1000x2560 .f32) : Vec Ideal S1000x2560 .f32 := win0_5.fill (grid0.coords t) d (iblk m c 5 t)
def a1blk (t : Fin cfg0.N) (d : Vec Ideal S1000x2560 .f32) : Vec Ideal S1000x2560 .f32 := win0_6.fill (grid0.coords t) d (iblk m c 6 t)

end Cert.KernelIdeal.Step

end
-- ==== Proof.StepRows.lean ====
import proofs.«179478_g15805479649410_cont_week2b_796_19_alg».proof.Proof.StepDefs
import proofs.«179478_g15805479649410_cont_week2b_796_19_alg».proof.Proof.BodyDefs
import Idealize.ShloMosaic.Lib.ValueIdx
import Idealize.ShloMosaic.Lib.Pipeline.Value

noncomputable section

namespace Cert.KernelIdeal.Step

open Cert.KernelIdeal Cert.KernelIdeal.Gen Cert.KernelIdeal.Body Cert.RelConv
open Idealize.ShloMosaic Idealize.ShloMosaic.TcCoe Idealize.ShloMosaic.ValueIdx

variable (m : (ℓ : Loc nD τ sig) → Buf (Elt Ideal) ℓ) (c : Dev nD)

/-- Before the first point nothing is asked of the scratch buffers. -/
theorem inv_zero (s0 : Vec Ideal S128x2560 .f32) (y0 y1 : Vec Ideal S10000x128 .bf16) : Inv m c 0 s0 y0 y1 := by
  refine ⟨fun r o h => ?_, fun hk => ?_⟩
  · exact absurd h (by omega)
  · exact (hk (by decide)).elim

/-- The row offsets the kernel computes, at every one of the 40 grid points. -/
theorem off1_all : ∀ t : Fin cfg0.N, k0_off1 (grid0.coords t) 0 = 1000 * (t.val % 10) :=
  (by decide +kernel : ∀ t : Fin grid0.N, k0_off1 (grid0.coords t) 0 = 1000 * (t.val % 10))
theorem off2_all : ∀ t : Fin cfg0.N, k0_off2 (grid0.coords t) 0 = 1000 * (t.val % 10) :=
  (by decide +kernel : ∀ t : Fin grid0.N, k0_off2 (grid0.coords t) 0 = 1000 * (t.val % 10))

/-- The rows of contraction block `k` start at row `1000 k`. -/
theorem off1_eq (t : Fin cfg0.N) : k0_off1 (grid0.coords t) 0 = 1000 * (t.val % 10) :=
  off1_all t
theorem off2_eq (t : Fin cfg0.N) : k0_off2 (grid0.coords t) 0 = 1000 * (t.val % 10) :=
  off2_all t

/-- First stripe: once the rows of block `k = t` are stored, every row below `1000 (t + 1)` is in place. -/
theorem rows_first (t : Fin cfg0.N) (ht : t.val < 10) (s0 : Vec Ideal S128x2560 .f32) (y0 y1 Y0' Y1' : Vec Ideal S10000x128 .bf16)
    (P1 P2 : Vec Ideal S1000x128 .bf16) (hI : Inv m c t.val s0 y0 y1)
    (hP1 : ∀ (ii : Fin 1000) (o : Fin 128), P1 (ix2 ii o) = lin0 m c (rowOf (kOf t) ii) o)
    (hP2 : ∀ (ii : Fin 1000) (o : Fin 128), P2 (ix2 ii o) = lin1 m c (rowOf (kOf t) ii) o)
    (h0 : RowsSet (k0_off1 (grid0.coords t) 0) P1 y0 Y0') (h1 : RowsSet (k0_off1 (grid0.coords t) 0) P2 y1 Y1') :
    ∀ (r : Fin 10000) (o : Fin 128), r.val < 1000 * (t.val + 1) → Y0' (ix2 r o) = lin0 m c r o ∧ Y1' (ix2 r o) = lin1 m c r o := by
  intro r o hr
  have hmod : t.val % 10 = t.val := Nat.mod_eq_of_lt ht
  rw [off1_eq t, hmod] at h0 h1
  by_cases hlt : r.val < 1000 * t.val
  · -- a row below the stored block is untouched, and was in place before
    have e0 : Y0' (ix2 r o) = y0 (ix2 r o) := h0.2 (ix2 r o) (Or.inl (by show r.val < 1000 * t.val; exact hlt))
    have e1 : Y1' (ix2 r o) = y1 (ix2 r o) := h1.2 (ix2 r o) (Or.inl (by show r.val < 1000 * t.val; exact hlt))
    rw [e0, e1]
    exact hI.1 r o hlt
  · -- a row of the stored block holds the block's row `r - 1000 t`
    have hii : r.val - 1000 * t.val < 1000 := by omega
    have hrow : rowOf (kOf t) ⟨r.val - 1000 * t.val, hii⟩ = r := by
      apply Fin.ext
      show 1000 * (t.val % 10) + (r.val - 1000 * t.val) = r.val
      omega
    have e0 : Y0' (ix2 r o) = P1 (ix2 ⟨r.val - 1000 * t.val, hii⟩ o) :=
      h0.1 (ix2 r o) (ix2 ⟨r.val - 1000 * t.val, hii⟩ o)
        (by show r.val = 1000 * t.val + (r.val - 1000 * t.val); omega) rfl
    have e1 : Y1' (ix2 r o) = P2 (ix2 ⟨r.val - 1000 * t.val, hii⟩ o) :=
      h1.1 (ix2 r o) (ix2 ⟨r.val - 1000 * t.val, hii⟩ o)
        (by show r.val = 1000 * t.val + (r.val - 1000 * t.val); omega) rfl
    rw [e0, e1, hP1, hP2, hrow]
    exact ⟨rfl, rfl⟩

/-- Later stripes: every row is already in place. -/
theorem rows_later (t : Fin cfg0.N) (ht : 10 ≤ t.val) (s0 : Vec Ideal S128x2560 .f32) (y0 y1 : Vec Ideal S10000x128 .bf16)
    (hI : Inv m c t.val s0 y0 y1) :
    ∀ (r : Fin 10000) (o : Fin 128), r.val < 1000 * (t.val + 1) → y0 (ix2 r o) = lin0 m c r o ∧ y1 (ix2 r o) = lin1 m c r o := by
  intro r o _
  exact hI.1 r o (by have := r.isLt; omega)

/-- The rows of block `k` loaded from buffers whose rows below `1000 (t + 1)` are in place are the affine maps' rows. -/
theorem ld_rows (t : Fin cfg0.N) (y0 y1 : Vec Ideal S10000x128 .bf16)
    (hrows : ∀ (r : Fin 10000) (o : Fin 128), r.val < 1000 * (t.val + 1) → y0 (ix2 r o) = lin0 m c r o ∧ y1 (ix2 r o) = lin1 m c r o)
    (ii : Fin 1000) (o : Fin 128) :
    (View.ld y0 (rowsLd (grid0.coords t)) : Vec Ideal S1000x128 .bf16) (ix2 ii o) = lin0 m c (rowOf (kOf t) ii) o
    ∧ (View.ld y1 (rowsLd (grid0.coords t)) : Vec Ideal S1000x128 .bf16) (ix2 ii o) = lin1 m c (rowOf (kOf t) ii) o := by
  have hoff := off2_eq t
  have hr : (rowOf (kOf t) ii).val < 1000 * (t.val + 1) := by
    show 1000 * (t.val % 10) + ii.val < 1000 * (t.val + 1)
    have := ii.isLt
    omega
  -- the loaded entry `(ii, o)` sits at row `1000 k + ii`, column `o` of the buffer
  have hidx : (rowsLd (grid0.coords t)).idx (ix2 ii o) = ix2 (rowOf (kOf t) ii) o := by
    funext a
    match a with
    | ⟨0, _⟩ =>
      apply Fin.ext
      show k0_off2 (grid0.coords t) 0 + 1 * ii.val = 1000 * (t.val % 10) + ii.val
      rw [hoff]; omega
    | ⟨1, _⟩ =>
      apply Fin.ext
      show 0 + 1 * o.val = o.val
      omega
  show y0 ((rowsLd (grid0.coords t)).idx (ix2 ii o)) = _ ∧ y1 ((rowsLd (grid0.coords t)).idx (ix2 ii o)) = _
  rw [hidx]
  exact hrows _ o hr

end Cert.KernelIdeal.Step

end
-- ==== Proof.PayloadIdeal.lean ====
import proofs.«179478_g15805479649410_cont_week2b_796_19_alg».proof.Proof.Gen.KernelIdeal.Skeleton
import Idealize.ShloMosaic.Lib.ValueIdx
import Idealize.ShloMosaic.Lib.Pipeline.Value
import Idealize.ShloMosaic.PureOps.Ideal.Laws

/-! The kernel body's six payloads read at an index, at the ideal values: every float is an extended
    real, every operation exact, a change of float format the identity. A product of matrices into a
    zero accumulator is the sum over the contracted axis of the products of the entries. -/

noncomputable section

namespace Cert.KernelIdeal.PayloadIdeal

open Cert.KernelIdeal Cert.KernelIdeal.Gen Idealize.ShloMosaic Idealize.ShloMosaic.ValueIdx
open scoped BigOperators

/-! ## The layout operations at an index -/

/-- The transpose of a 128×2560 array at (j, o) is the array at (o, j). -/
theorem transpose_wide_apply (x : Vec Ideal S128x2560 .f32) (j : Fin 2560) (o : Fin 128) :
    transpose S2560x128 [1, 0] x transposes_S128x2560_p1_0_S2560x128 (ix2 j o) = x (ix2 o j) :=
  transpose_apply [1, 0] x transposes_S128x2560_p1_0_S2560x128 (ix2 j o) (ix2 o j) (fun b => match b with
    | ⟨0, _⟩ => rfl
    | ⟨1, _⟩ => rfl)

/-- The transpose of a 1000×128 array at (o, i) is the array at (i, o). -/
theorem transpose_tall_apply (x : Vec Ideal S1000x128 .bf16) (o : Fin 128) (i : Fin 1000) :
    transpose S128x1000 [1, 0] x transposes_S1000x128_p1_0_S128x1000 (ix2 o i) = x (ix2 i o) :=
  transpose_apply [1, 0] x transposes_S1000x128_p1_0_S128x1000 (ix2 o i) (ix2 i o) (fun b => match b with
    | ⟨0, _⟩ => rfl
    | ⟨1, _⟩ => rfl)

/-- A row broadcast down 1000 rows reads the row at the column. -/
theorem broadcast_row_apply (x : Vec Ideal S1x128 .f32) (r : Fin 1000) (o : Fin 128) :
    broadcastTo S1000x128 x broadcasts_S1x128_S1000x128 (ix2 r o) = x (ix2 (0 : Fin 1) o) :=
  broadcastTo_apply x broadcasts_S1x128_S1000x128 (ix2 r o) (ix2 (0 : Fin 1) o) (fun a => match a with
    | ⟨0, _⟩ => by show 0 = if (1 : Nat) = 1 then 0 else r.val; rw [if_pos rfl]
    | ⟨1, _⟩ => by show o.val = if (128 : Nat) = 1 then 0 else o.val; rw [if_neg (by decide)])

/-! ## The product that contracts the second axis of both operands -/

theorem lhs_rows_0 (i : S1000x128.Idx) (q : dot_S1000x128_S128x128_S1000x128_1_1_0_0_n_n.contr.Idx) :
    (dot_S1000x128_S128x128_S1000x128_1_1_0_0_n_n.lhsIdx i q 0).val = (i 0).val := by
  unfold DotDims.lhsIdx
  rw [dif_neg (show ¬(0 : Fin S1000x128.rank) ∈ dot_S1000x128_S128x128_S1000x128_1_1_0_0_n_n.lhsBatch by decide), dif_pos (show (0 : Fin S1000x128.rank) ∈ dot_S1000x128_S128x128_S1000x128_1_1_0_0_n_n.lhsNonContracting by decide)]
  rfl
theorem lhs_rows_1 (i : S1000x128.Idx) (q : dot_S1000x128_S128x128_S1000x128_1_1_0_0_n_n.contr.Idx) :
    (dot_S1000x128_S128x128_S1000x128_1_1_0_0_n_n.lhsIdx i q 1).val = (q ⟨0, by decide⟩).val :=
  dot_S1000x128_S128x128_S1000x128_1_1_0_0_n_n.lhsIdx_val_of_single rfl i q
theorem rhs_rows_0 (i : S1000x128.Idx) (q : dot_S1000x128_S128x128_S1000x128_1_1_0_0_n_n.contr.Idx) :
    (dot_S1000x128_S128x128_S1000x128_1_1_0_0_n_n.rhsIdx i q 0).val = (i 1).val := by
  unfold DotDims.rhsIdx
  rw [dif_neg (show ¬(0 : Fin S128x128.rank) ∈ dot_S1000x128_S128x128_S1000x128_1_1_0_0_n_n.rhsBatch by decide), dif_pos (show (0 : Fin S128x128.rank) ∈ dot_S1000x128_S128x128_S1000x128_1_1_0_0_n_n.rhsNonContracting by decide)]
  rfl
theorem rhs_rows_1 (i : S1000x128.Idx) (q : dot_S1000x128_S128x128_S1000x128_1_1_0_0_n_n.contr.Idx) :
    (dot_S1000x128_S128x128_S1000x128_1_1_0_0_n_n.rhsIdx i q 1).val = (q ⟨0, by decide⟩).val :=
  dot_S1000x128_S128x128_S1000x128_1_1_0_0_n_n.rhsIdx_val_of_single rfl i q

/-- Entry (r, o) of the product of a 1000×128 array with the transpose of a 128×128 one, into zero. -/
theorem matmul_rows_apply (x : FVec Ideal S1000x128 .f32) (w : FVec Ideal S128x128 .f32) (r : Fin 1000) (o : Fin 128) :
    matmul (F := Ideal) dot_S1000x128_S128x128_S1000x128_1_1_0_0_n_n none x w (constant (F := Ideal) S1000x128 .f32 0x00000000#32) (ix2 r o)
      = ∑ d : Fin 128, x (ix2 r d) * w (ix2 o d) := by
  simp only [matmul]
  rw [Ideal.matmul_constant_zero_apply, ← Equiv.sum_comp (contrEquiv1 dot_S1000x128_S128x128_S1000x128_1_1_0_0_n_n 128 rfl rfl).symm]
  refine Finset.sum_congr rfl fun k _ => ?_
  have hk := contrEquiv1_symm_val dot_S1000x128_S128x128_S1000x128_1_1_0_0_n_n 128 rfl rfl k
  have el : dot_S1000x128_S128x128_S1000x128_1_1_0_0_n_n.lhsIdx (ix2 r o) ((contrEquiv1 dot_S1000x128_S128x128_S1000x128_1_1_0_0_n_n 128 rfl rfl).symm k) = ix2 r k := funext fun a => Fin.ext (by
    match a with
    | ⟨0, _⟩ => exact lhs_rows_0 _ _
    | ⟨1, _⟩ => exact (lhs_rows_1 _ _).trans hk)
  have er : dot_S1000x128_S128x128_S1000x128_1_1_0_0_n_n.rhsIdx (ix2 r o) ((contrEquiv1 dot_S1000x128_S128x128_S1000x128_1_1_0_0_n_n 128 rfl rfl).symm k) = ix2 o k := funext fun a => Fin.ext (by
    match a with
    | ⟨0, _⟩ => exact rhs_rows_0 _ _
    | ⟨1, _⟩ => exact (rhs_rows_1 _ _).trans hk)
  rw [el, er]

/-! ## The product that contracts the left operand's second axis with the right operand's first -/

theorem lhs_cols_0 (i : S128x2560.Idx) (q : dot_S128x1000_S1000x2560_S128x2560_1_0_0_1_n_n.contr.Idx) :
    (dot_S128x1000_S1000x2560_S128x2560_1_0_0_1_n_n.lhsIdx i q 0).val = (i 0).val := by
  unfold DotDims.lhsIdx
  rw [dif_neg (show ¬(0 : Fin S128x1000.rank) ∈ dot_S128x1000_S1000x2560_S128x2560_1_0_0_1_n_n.lhsBatch by decide), dif_pos (show (0 : Fin S128x1000.rank) ∈ dot_S128x1000_S1000x2560_S128x2560_1_0_0_1_n_n.lhsNonContracting by decide)]
  rfl
theorem lhs_cols_1 (i : S128x2560.Idx) (q : dot_S128x1000_S1000x2560_S128x2560_1_0_0_1_n_n.contr.Idx) :
    (dot_S128x1000_S1000x2560_S128x2560_1_0_0_1_n_n.lhsIdx i q 1).val = (q ⟨0, by decide⟩).val :=
  dot_S128x1000_S1000x2560_S128x2560_1_0_0_1_n_n.lhsIdx_val_of_single rfl i q
theorem rhs_cols_0 (i : S128x2560.Idx) (q : dot_S128x1000_S1000x2560_S128x2560_1_0_0_1_n_n.contr.Idx) :
    (dot_S128x1000_S1000x2560_S128x2560_1_0_0_1_n_n.rhsIdx i q 0).val = (q ⟨0, by decide⟩).val :=
  dot_S128x1000_S1000x2560_S128x2560_1_0_0_1_n_n.rhsIdx_val_of_single rfl i q
theorem rhs_cols_1 (i : S128x2560.Idx) (q : dot_S128x1000_S1000x2560_S128x2560_1_0_0_1_n_n.contr.Idx) :
    (dot_S128x1000_S1000x2560_S128x2560_1_0_0_1_n_n.rhsIdx i q 1).val = (i 1).val := by
  unfold DotDims.rhsIdx
  rw [dif_neg (show ¬(1 : Fin S1000x2560.rank) ∈ dot_S128x1000_S1000x2560_S128x2560_1_0_0_1_n_n.rhsBatch by decide), dif_pos (show (1 : Fin S1000x2560.rank) ∈ dot_S128x1000_S1000x2560_S128x2560_1_0_0_1_n_n.rhsNonContracting by decide)]
  rfl

/-- Entry (o, j) of the product of a 128×1000 array with a 1000×2560 one, into zero. -/
theorem matmul_cols_apply (a : FVec Ideal S128x1000 .bf16) (b : FVec Ideal S1000x2560 .bf16) (o : Fin 128) (j : Fin 2560) :
    matmul (F := Ideal) dot_S128x1000_S1000x2560_S128x2560_1_0_0_1_n_n none a b (constant (F := Ideal) S128x2560 .f32 0x00000000#32) (ix2 o j)
      = ∑ i : Fin 1000, a (ix2 o i) * b (ix2 i j) := by
  simp only [matmul]
  rw [Ideal.matmul_constant_zero_apply, ← Equiv.sum_comp (contrEquiv1 dot_S128x1000_S1000x2560_S128x2560_1_0_0_1_n_n 1000 rfl rfl).symm]
  refine Finset.sum_congr rfl fun k _ => ?_
  have hk := contrEquiv1_symm_val dot_S128x1000_S1000x2560_S128x2560_1_0_0_1_n_n 1000 rfl rfl k
  have el : dot_S128x1000_S1000x2560_S128x2560_1_0_0_1_n_n.lhsIdx (ix2 o j) ((contrEquiv1 dot_S128x1000_S1000x2560_S128x2560_1_0_0_1_n_n 1000 rfl rfl).symm k) = ix2 o k := funext fun a => Fin.ext (by
    match a with
    | ⟨0, _⟩ => exact lhs_cols_0 _ _
    | ⟨1, _⟩ => exact (lhs_cols_1 _ _).trans hk)
  have er : dot_S128x1000_S1000x2560_S128x2560_1_0_0_1_n_n.rhsIdx (ix2 o j) ((contrEquiv1 dot_S128x1000_S1000x2560_S128x2560_1_0_0_1_n_n 1000 rfl rfl).symm k) = ix2 k j := funext fun a => Fin.ext (by
    match a with
    | ⟨0, _⟩ => exact (rhs_cols_0 _ _).trans hk
    | ⟨1, _⟩ => exact rhs_cols_1 _ _)
  rw [el, er]

/-! ## The payloads -/

/-- The transposed accumulator: entry (j, o) is the accumulator's (o, j). -/
theorem pay6_apply (v27 : Vec Ideal S128x2560 .f32) (j : Fin 2560) (o : Fin 128) :
    k0_pay6 (F := Ideal) v27 (ix2 j o) = v27 (ix2 o j) := by
  unfold k0_pay6
  exact transpose_wide_apply v27 j o

/-- The two products summed: entry (o, j) sums, over the 1000 rows i, the first array's (i, o) times the second's (i, j). -/
theorem pay3_apply (v5 v9 : Vec Ideal S1000x128 .bf16) (v11 v13 : Vec Ideal S1000x2560 .f32) (o : Fin 128) (j : Fin 2560) :
    k0_pay3 (F := Ideal) v5 v9 v11 v13 (ix2 o j)
      = (∑ i : Fin 1000, v5 (ix2 i o) * v11 (ix2 i j)) + ∑ i : Fin 1000, v9 (ix2 i o) * v13 (ix2 i j) := by
  unfold k0_pay3
  refine (addf_apply _ _ _).trans ?_
  refine congrArg₂ (· + ·) ((matmul_cols_apply _ _ o j).trans ?_) ((matmul_cols_apply _ _ o j).trans ?_)
  · exact Finset.sum_congr rfl fun i _ => congrArg (· * v11 (ix2 i j)) (transpose_tall_apply v5 o i)
  · exact Finset.sum_congr rfl fun i _ => congrArg (· * v13 (ix2 i j)) (transpose_tall_apply v9 o i)

/-- A shape cast to the same shape changes nothing: the sum of the two products as it is. -/
theorem pay4_apply (v5 v9 : Vec Ideal S1000x128 .bf16) (v11 v13 : Vec Ideal S1000x2560 .f32) (o : Fin 128) (j : Fin 2560) :
    k0_pay4 (F := Ideal) v5 v9 v11 v13 (ix2 o j) = k0_pay3 (F := Ideal) v5 v9 v11 v13 (ix2 o j) := by
  unfold k0_pay4
  exact congrFun (shapeCast_self _ _) (ix2 o j)

/-- The accumulator plus the sum of the two products. -/
theorem pay5_apply (v5 v9 : Vec Ideal S1000x128 .bf16) (v11 v13 : Vec Ideal S1000x2560 .f32) (v27 : Vec Ideal S128x2560 .f32)
    (o : Fin 128) (j : Fin 2560) :
    k0_pay5 (F := Ideal) v5 v9 v11 v13 v27 (ix2 o j) = v27 (ix2 o j) + k0_pay3 (F := Ideal) v5 v9 v11 v13 (ix2 o j) := by
  unfold k0_pay5
  refine (congrFun (shapeCast_self _ _) (ix2 o j)).trans ?_
  exact addf_apply _ _ _

/-- The first projection: the rows times the transposed weights, plus the bias row. -/
theorem pay1_apply (v29 : Vec Ideal S1000x128 .f32) (v30 : Vec Ideal S128x128 .f32) (v32 : Vec Ideal S1x128 .f32)
    (r : Fin 1000) (o : Fin 128) :
    k0_pay1 (F := Ideal) v29 v30 v32 (ix2 r o)
      = (∑ d : Fin 128, v29 (ix2 r d) * v30 (ix2 o d)) + v32 (ix2 (0 : Fin 1) o) := by
  unfold k0_pay1
  refine (congrFun (shapeCast_self _ _) (ix2 r o)).trans ?_
  refine (truncf_apply (φ := .f32) (ψ := .bf16) _ bitsLt_bf16_f32 (ix2 r o)).trans ?_
  refine (addf_apply _ _ _).trans ?_
  refine congrArg₂ (· + ·) (matmul_rows_apply v29 v30 r o) ((broadcast_row_apply _ r o).trans ?_)
  exact congrFun (shapeCast_self _ _) (ix2 (0 : Fin 1) o)

/-- The second projection: the same with the second weights and bias. -/
theorem pay2_apply (v29 : Vec Ideal S1000x128 .f32) (v36 : Vec Ideal S128x128 .f32) (v38 : Vec Ideal S1x128 .f32)
    (r : Fin 1000) (o : Fin 128) :
    k0_pay2 (F := Ideal) v29 v36 v38 (ix2 r o)
      = (∑ d : Fin 128, v29 (ix2 r d) * v36 (ix2 o d)) + v38 (ix2 (0 : Fin 1) o) := by
  unfold k0_pay2
  refine (congrFun (shapeCast_self _ _) (ix2 r o)).trans ?_
  refine (truncf_apply (φ := .f32) (ψ := .bf16) _ bitsLt_bf16_f32 (ix2 r o)).trans ?_
  refine (addf_apply _ _ _).trans ?_
  refine congrArg₂ (· + ·) (matmul_rows_apply v29 v36 r o) ((broadcast_row_apply _ r o).trans ?_)
  exact congrFun (shapeCast_self _ _) (ix2 (0 : Fin 1) o)

end Cert.KernelIdeal.PayloadIdeal

end
-- ==== Proof.StepPay.lean ====
import proofs.«179478_g15805479649410_cont_week2b_796_19_alg».proof.Proof.StepDefs
import proofs.«179478_g15805479649410_cont_week2b_796_19_alg».proof.Proof.BodyDefs
import proofs.«179478_g15805479649410_cont_week2b_796_19_alg».proof.Proof.PayloadIdeal
import Idealize.ShloMosaic.Lib.ValueIdx
import Idealize.ShloMosaic.Lib.Pipeline.Value
import Idealize.ShloMosaic.Lib.StableHlo.Run

noncomputable section

namespace Cert.KernelIdeal.Step

open Cert.KernelIdeal Cert.KernelIdeal.Gen Cert.KernelIdeal.Body Cert.RelConv
open Idealize.ShloMosaic Idealize.ShloMosaic.TcCoe Idealize.ShloMosaic.ValueIdx

variable (m : (ℓ : Loc nD τ sig) → Buf (Elt Ideal) ℓ) (c : Dev nD)

/-- The first of the rows a point computes is row 1000 k of its contraction block k, from column 0. -/
theorem rows_off : ∀ t : Fin cfg0.N, k0_off1 (grid0.coords t) 0 = 1000 * (t.val % 10) ∧ k0_off1 (grid0.coords t) 1 = 0 :=
  (by decide +kernel : ∀ t : Fin grid0.N, k0_off1 (grid0.coords t) 0 = 1000 * (t.val % 10) ∧ k0_off1 (grid0.coords t) 1 = 0)

/-- The features, the weights and the one-row biases are each a single block: every point's block index is 0 on both axes. -/
theorem whole_idx : ∀ t : Fin cfg0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0))

/-- The rows a first-stripe point loads are the features' rows of its contraction block. -/
theorem x_rows (t : Fin cfg0.N) (hc1 : firstStripe (grid0.coords t)) (ii : Fin 1000) (d : Fin 128) :
    View.ld (iblk m c 0 t) (rowsSt (grid0.coords t) hc1) (ix2 ii d) = kX m c (rowOf (kOf t) ii) d := by
  obtain ⟨o0, o1⟩ := rows_off t
  obtain ⟨⟨e0, e1⟩, -⟩ := whole_idx t
  show V m c main_arg2 (((cfg0.win 0).blk t).view.emb ((rowsSt (grid0.coords t) hc1).idx (ix2 ii d))) = _
  rw [V_main_arg2]
  unfold kX
  refine congrArg _ (funext fun a => Fin.ext ?_)
  match a with
  | ⟨0, _⟩ =>
    show win0_0.index t 0 * 10000 + 1 * (k0_off1 (grid0.coords t) 0 + 1 * ii.val) = 1000 * (t.val % 10) + ii.val
    rw [e0, o0]; omega
  | ⟨1, _⟩ =>
    show win0_0.index t 1 * 128 + 1 * (k0_off1 (grid0.coords t) 1 + 1 * d.val) = d.val
    rw [e1, o1]; omega

/-- Window 1's block is the first relation's weights. -/
theorem w0_read (t : Fin cfg0.N) (o d : Fin 128) : (iblk m c 1 t : S128x128.Idx → EReal) (ix2 o d) = kW0 m c o d := by
  obtain ⟨-, ⟨e0, e1⟩, -⟩ := whole_idx t
  show V m c main_arg3 (((cfg0.win 1).blk t).view.emb (ix2 o d)) = _
  rw [V_main_arg3]
  unfold kW0
  refine congrArg _ (funext fun a => Fin.ext ?_)
  match a with
  | ⟨0, _⟩ =>
    show win0_1.index t 0 * 128 + 1 * o.val = o.val
    rw [e0]; omega
  | ⟨1, _⟩ =>
    show win0_1.index t 1 * 128 + 1 * d.val = d.val
    rw [e1]; omega

/-- Window 3's block is the second relation's weights. -/
theorem w1_read (t : Fin cfg0.N) (o d : Fin 128) : (iblk m c 3 t : S128x128.Idx → EReal) (ix2 o d) = kW1 m c o d := by
  obtain ⟨-, -, -, ⟨e0, e1⟩, -⟩ := whole_idx t
  show V m c main_arg5 (((cfg0.win 3).blk t).view.emb (ix2 o d)) = _
  rw [V_main_arg5]
  unfold kW1
  refine congrArg _ (funext fun a => Fin.ext ?_)
  match a with
  | ⟨0, _⟩ =>
    show win0_3.index t 0 * 128 + 1 * o.val = o.val
    rw [e0]; omega
  | ⟨1, _⟩ =>
    show win0_3.index t 1 * 128 + 1 * d.val = d.val
    rw [e1]; omega

/-- The one-row array the host wrote from the first bias. -/
theorem v0_eq : (V m c main_v0 : S1x128.Idx → EReal)
    = broadcastInDim S1x128 ![1] bcast_S128_S1x128_1 (m ((c.tc : Thread nD τ).loc main_arg4) : (⟨S128, .f32⟩ : BufTy).Contents (Elt Ideal)) := by
  dsimp only [Gen.V, Gen.hostOps0]; after_results

/-- The one-row array the host wrote from the second bias. -/
theorem v1_eq : (V m c main_v1 : S1x128.Idx → EReal)
    = broadcastInDim S1x128 ![1] bcast_S128_S1x128_1 (m ((c.tc : Thread nD τ).loc main_arg6) : (⟨S128, .f32⟩ : BufTy).Contents (Elt Ideal)) := by
  dsimp only [Gen.V, Gen.hostOps0]; after_results

/-- A vector broadcast to one row reads, at column o, the vector at o. -/
theorem one_row_apply (b : S128.Idx → EReal) (j : S1x128.Idx) (o : Fin 128) (hj : (j 1).val = o.val) :
    broadcastInDim S1x128 ![1] bcast_S128_S1x128_1 b j = b (ix1 o) :=
  broadcastInDim_apply ![1] bcast_S128_S1x128_1 b j (ix1 o) (fun a => match a with
    | ⟨0, _⟩ => by show o.val = if (128 : Nat) = 1 then 0 else (j 1).val; rw [if_neg (by decide), hj])

/-- Window 2's block is the first relation's bias as one row. -/
theorem b0_read (t : Fin cfg0.N) (o : Fin 128) : (iblk m c 2 t : S1x128.Idx → EReal) (ix2 (0 : Fin 1) o) = kB0 m c o := by
  obtain ⟨-, -, ⟨e0, e1⟩, -⟩ := whole_idx t
  show (V m c main_v0 : S1x128.Idx → EReal) (((cfg0.win 2).blk t).view.emb (ix2 (0 : Fin 1) o)) = _
  rw [v0_eq]
  unfold kB0
  refine one_row_apply _ _ o ?_
  show win0_2.index t 1 * 128 + 1 * o.val = o.val
  rw [e1]; omega

/-- Window 4's block is the second relation's bias as one row. -/
theorem b1_read (t : Fin cfg0.N) (o : Fin 128) : (iblk m c 4 t : S1x128.Idx → EReal) (ix2 (0 : Fin 1) o) = kB1 m c o := by
  obtain ⟨-, -, -, -, ⟨e0, e1⟩⟩ := whole_idx t
  show (V m c main_v1 : S1x128.Idx → EReal) (((cfg0.win 4).blk t).view.emb (ix2 (0 : Fin 1) o)) = _
  rw [v1_eq]
  unfold kB1
  refine one_row_apply _ _ o ?_
  show win0_4.index t 1 * 128 + 1 * o.val = o.val
  rw [e1]; omega

/-- First stripe: the rows the point computes are the affine maps' rows of its contraction block: the feature rows
    `1000 k + ii` times the relation's weights, plus its bias. -/
theorem pay1_rows (t : Fin cfg0.N) (hc1 : firstStripe (grid0.coords t)) (ii : Fin 1000) (o : Fin 128) :
    k0_pay1 (F := Ideal) (View.ld (iblk m c 0 t) (rowsSt (grid0.coords t) hc1)) (iblk m c 1 t) (iblk m c 2 t) (ix2 ii o)
      = lin0 m c (rowOf (kOf t) ii) o := by
  refine (PayloadIdeal.pay1_apply (View.ld (iblk m c 0 t) (rowsSt (grid0.coords t) hc1)) (iblk m c 1 t) (iblk m c 2 t) ii o).trans ?_
  unfold lin0 lin
  refine congrArg₂ (· + ·) (Finset.sum_congr rfl fun d _ => congrArg₂ (· * ·) (x_rows m c t hc1 ii d) (w0_read m c t o d)) (b0_read m c t o)

/-- The same for the second relation's weights and bias. -/
theorem pay2_rows (t : Fin cfg0.N) (hc1 : firstStripe (grid0.coords t)) (ii : Fin 1000) (o : Fin 128) :
    k0_pay2 (F := Ideal) (View.ld (iblk m c 0 t) (rowsSt (grid0.coords t) hc1)) (iblk m c 3 t) (iblk m c 4 t) (ix2 ii o)
      = lin1 m c (rowOf (kOf t) ii) o := by
  refine (PayloadIdeal.pay2_apply (View.ld (iblk m c 0 t) (rowsSt (grid0.coords t) hc1)) (iblk m c 3 t) (iblk m c 4 t) ii o).trans ?_
  unfold lin1 lin
  refine congrArg₂ (· + ·) (Finset.sum_congr rfl fun d _ => congrArg₂ (· * ·) (x_rows m c t hc1 ii d) (w1_read m c t o d)) (b1_read m c t o)

end Cert.KernelIdeal.Step

end
-- ==== Proof.StepAcc.lean ====
import proofs.«179478_g15805479649410_cont_week2b_796_19_alg».proof.Proof.StepDefs
import proofs.«179478_g15805479649410_cont_week2b_796_19_alg».proof.Proof.BodyDefs
import proofs.«179478_g15805479649410_cont_week2b_796_19_alg».proof.Proof.PayloadIdeal
import Idealize.ShloMosaic.Lib.ValueIdx
import Idealize.ShloMosaic.Lib.Pipeline.Value

noncomputable section

namespace Cert.KernelIdeal.Step

open Cert.KernelIdeal Cert.KernelIdeal.Gen Cert.KernelIdeal.Body Cert.RelConv
open Idealize.ShloMosaic Idealize.ShloMosaic.TcCoe Idealize.ShloMosaic.ValueIdx

variable (m : (ℓ : Loc nD τ sig) → Buf (Elt Ideal) ℓ) (c : Dev nD)

/-- The first adjacency's block at point `t` is block `(t % 10, t / 10)`: contraction block, then stripe. -/
theorem idx5 : ∀ t : Fin cfg0.N, win0_5.index t 0 = t.val % 10 ∧ win0_5.index t 1 = t.val / 10 :=
  (by decide +kernel : ∀ t : Fin grid0.N, win0_5.index t 0 = t.val % 10 ∧ win0_5.index t 1 = t.val / 10)

/-- What is inside the array of that block: all 1000 rows, and the stripe's columns up to the last destination node. -/
theorem xs5 : ∀ t : Fin cfg0.N, win0_5.xsize (grid0.coords t) 0 = 1000
    ∧ win0_5.xsize (grid0.coords t) 1 = min 2560 (10000 - 2560 * (t.val / 10)) :=
  (by decide +kernel : ∀ t : Fin grid0.N, win0_5.xsize (grid0.coords t) 0 = 1000
    ∧ win0_5.xsize (grid0.coords t) 1 = min 2560 (10000 - 2560 * (t.val / 10)))

/-- The first adjacency's block read at a column that is a destination node: the entry at source node
    `1000 (t % 10) + i` and destination node `2560 (t / 10) + j`. -/
theorem a0blk_apply (t : Fin cfg0.N) (d5 : Vec Ideal S1000x2560 .f32) (i : Fin 1000) (j : Fin 2560)
    (hJ : col0 t.val + j.val < 10000) :
    a0blk m c t d5 (ix2 i j) = kA0 m c (rowOf (kOf t) i) ⟨col0 t.val + j.val, hJ⟩ := by
  obtain ⟨hx0, hx1⟩ := xs5 t
  obtain ⟨hi0, hi1⟩ := idx5 t
  have hmv : win0_5.moved (grid0.coords t) (ix2 i j) = true := by
    rw [Pipeline.Window.moved_iff]
    intro a
    match a with
    | ⟨0, _⟩ => show i.val < win0_5.xsize (grid0.coords t) 0; rw [hx0]; exact i.isLt
    | ⟨1, _⟩ => show j.val < win0_5.xsize (grid0.coords t) 1; rw [hx1]; unfold col0 at hJ; omega
  unfold a0blk Pipeline.Window.fill
  rw [dif_pos hmv]
  unfold iblk
  rw [View.read_apply]
  show (V m c main_arg0 : S10000x10000.Idx → EReal) (((cfg0.win 5).blk t).view.emb _) = _
  rw [V_main_arg0]
  unfold kA0
  refine congrArg _ (funext fun a => Fin.ext ?_)
  match a with
  | ⟨0, _⟩ =>
    show win0_5.index t 0 * 1000 + 1 * i.val = 1000 * (t.val % 10) + i.val
    rw [hi0]; omega
  | ⟨1, _⟩ =>
    show win0_5.index t 1 * 2560 + 1 * j.val = col0 t.val + j.val
    rw [hi1]; unfold col0; omega

/-- The second adjacency's block at point `t` is block `(t % 10, t / 10)` likewise. -/
theorem idx6 : ∀ t : Fin cfg0.N, win0_6.index t 0 = t.val % 10 ∧ win0_6.index t 1 = t.val / 10 :=
  (by decide +kernel : ∀ t : Fin grid0.N, win0_6.index t 0 = t.val % 10 ∧ win0_6.index t 1 = t.val / 10)

/-- What is inside the array of that block: all 1000 rows, and the stripe's columns up to the last destination node. -/
theorem xs6 : ∀ t : Fin cfg0.N, win0_6.xsize (grid0.coords t) 0 = 1000
    ∧ win0_6.xsize (grid0.coords t) 1 = min 2560 (10000 - 2560 * (t.val / 10)) :=
  (by decide +kernel : ∀ t : Fin grid0.N, win0_6.xsize (grid0.coords t) 0 = 1000
    ∧ win0_6.xsize (grid0.coords t) 1 = min 2560 (10000 - 2560 * (t.val / 10)))

/-- The second adjacency's block read at a column that is a destination node. -/
theorem a1blk_apply (t : Fin cfg0.N) (d6 : Vec Ideal S1000x2560 .f32) (i : Fin 1000) (j : Fin 2560)
    (hJ : col0 t.val + j.val < 10000) :
    a1blk m c t d6 (ix2 i j) = kA1 m c (rowOf (kOf t) i) ⟨col0 t.val + j.val, hJ⟩ := by
  obtain ⟨hx0, hx1⟩ := xs6 t
  obtain ⟨hi0, hi1⟩ := idx6 t
  have hmv : win0_6.moved (grid0.coords t) (ix2 i j) = true := by
    rw [Pipeline.Window.moved_iff]
    intro a
    match a with
    | ⟨0, _⟩ => show i.val < win0_6.xsize (grid0.coords t) 0; rw [hx0]; exact i.isLt
    | ⟨1, _⟩ => show j.val < win0_6.xsize (grid0.coords t) 1; rw [hx1]; unfold col0 at hJ; omega
  unfold a1blk Pipeline.Window.fill
  rw [dif_pos hmv]
  unfold iblk
  rw [View.read_apply]
  show (V m c main_arg1 : S10000x10000.Idx → EReal) (((cfg0.win 6).blk t).view.emb _) = _
  rw [V_main_arg1]
  unfold kA1
  refine congrArg _ (funext fun a => Fin.ext ?_)
  match a with
  | ⟨0, _⟩ =>
    show win0_6.index t 0 * 1000 + 1 * i.val = 1000 * (t.val % 10) + i.val
    rw [hi0]; omega
  | ⟨1, _⟩ =>
    show win0_6.index t 1 * 2560 + 1 * j.val = col0 t.val + j.val
    rw [hi1]; unfold col0; omega

/-- One point's partial products, in a column that is a destination node `J`: the block's term of the two
    contractions at `(J, o)` — whatever the adjacency blocks hold past the last destination node. -/
theorem acc_block (t : Fin cfg0.N) (V5 V9 : Vec Ideal S1000x128 .bf16)
    (h5 : ∀ (ii : Fin 1000) (o : Fin 128), V5 (ix2 ii o) = lin0 m c (rowOf (kOf t) ii) o)
    (h9 : ∀ (ii : Fin 1000) (o : Fin 128), V9 (ix2 ii o) = lin1 m c (rowOf (kOf t) ii) o)
    (d5 d6 : Vec Ideal S1000x2560 .f32) (o : Fin 128) (j : Fin 2560) (hJ : col0 t.val + j.val < 10000) :
    k0_pay3 (F := Ideal) V5 V9 (a0blk m c t d5) (a1blk m c t d6) (ix2 o j)
      = blockTerm (term0 m c ⟨col0 t.val + j.val, hJ⟩ o) (term1 m c ⟨col0 t.val + j.val, hJ⟩ o) (kOf t) := by
  rw [PayloadIdeal.pay3_apply]
  unfold blockTerm term0 term1
  refine congrArg₂ (· + ·) (Finset.sum_congr rfl fun i _ => ?_) (Finset.sum_congr rfl fun i _ => ?_)
  · rw [h5, a0blk_apply m c t d5 i j hJ]
  · rw [h9, a1blk_apply m c t d6 i j hJ]

end Cert.KernelIdeal.Step

end
-- ==== Proof.StepInv.lean ====
import proofs.«179478_g15805479649410_cont_week2b_796_19_alg».proof.Proof.StepDefs
import proofs.«179478_g15805479649410_cont_week2b_796_19_alg».proof.Proof.BodyDefs
import proofs.«179478_g15805479649410_cont_week2b_796_19_alg».proof.Proof.PayloadIdeal
import proofs.«179478_g15805479649410_cont_week2b_796_19_alg».proof.Proof.StepAcc
import Idealize.ShloMosaic.Lib.ValueIdx
import Idealize.ShloMosaic.Lib.Pipeline.Value

noncomputable section

namespace Cert.KernelIdeal.Step

open Cert.KernelIdeal Cert.KernelIdeal.Gen Cert.KernelIdeal.Body Cert.RelConv
open Idealize.ShloMosaic Idealize.ShloMosaic.TcCoe Idealize.ShloMosaic.ValueIdx

variable (m : (ℓ : Loc nD τ sig) → Buf (Elt Ideal) ℓ) (c : Dev nD)

/-- The running sum does not depend on how its block number is written. -/
theorem runSum_congr (f g : Fin 10000 → EReal) {k k' : ℕ} (e : k = k') (h : k < 10) (h' : k' < 10) :
    runSum f g k h = runSum f g k' h' := by
  subst e; rfl

theorem runSum_succ' (f g : Fin 10000 → EReal) (k : ℕ) (h : k + 1 < 10) :
    runSum f g (k + 1) h = runSum f g k (by omega) + blockTerm f g ⟨k + 1, h⟩ := by
  rw [runSum]

/-- What the accumulator holds after point `t` in a column that is a destination node: the running sum over the
    stripe's contraction blocks up to the point's. -/
theorem acc_value (t : Fin cfg0.N) (s0 : Vec Ideal S128x2560 .f32) (y0 y1 : Vec Ideal S10000x128 .bf16)
    (V5 V9 : Vec Ideal S1000x128 .bf16) (ACC : Vec Ideal S128x2560 .f32) (d5 d6 : Vec Ideal S1000x2560 .f32)
    (hI : Inv m c t.val s0 y0 y1)
    (h5 : ∀ (ii : Fin 1000) (o : Fin 128), V5 (ix2 ii o) = lin0 m c (rowOf (kOf t) ii) o)
    (h9 : ∀ (ii : Fin 1000) (o : Fin 128), V9 (ix2 ii o) = lin1 m c (rowOf (kOf t) ii) o)
    (hACC : (t.val % 10 = 0 ∧ ACC = k0_pay4 (F := Ideal) V5 V9 (a0blk m c t d5) (a1blk m c t d6))
      ∨ (t.val % 10 ≠ 0 ∧ ACC = k0_pay5 (F := Ideal) V5 V9 (a0blk m c t d5) (a1blk m c t d6) s0))
    (o : Fin 128) (j : Fin 2560) (hJ : col0 t.val + j.val < 10000) :
    ACC (ix2 o j) = runSum (term0 m c ⟨col0 t.val + j.val, hJ⟩ o) (term1 m c ⟨col0 t.val + j.val, hJ⟩ o) (t.val % 10)
      (Nat.mod_lt _ (by decide)) := by
  have hb := acc_block m c t V5 V9 h5 h9 d5 d6 o j hJ
  rcases hACC with ⟨h0, rfl⟩ | ⟨hk, rfl⟩
  · rw [PayloadIdeal.pay4_apply, hb]
    have e : kOf t = ⟨0, by omega⟩ := Fin.ext h0
    rw [e, runSum_congr _ _ h0 _ (by omega)]
    rfl
  · rw [PayloadIdeal.pay5_apply, hb, hI.2 hk o j hJ]
    obtain ⟨k, hk'⟩ : ∃ k, t.val % 10 = k + 1 := ⟨t.val % 10 - 1, by omega⟩
    have hlt : k + 1 < 10 := by omega
    have e : kOf t = ⟨k + 1, hlt⟩ := Fin.ext hk'
    rw [runSum_congr _ _ hk' _ hlt, runSum_succ', runSum_congr _ _ (show t.val % 10 - 1 = k by omega) _ (by omega), e]

/-- The invariant after point `t`. -/
theorem inv_succ (t : Fin cfg0.N) (s0 : Vec Ideal S128x2560 .f32) (y0 y1 Y0' Y1' : Vec Ideal S10000x128 .bf16)
    (V5 V9 : Vec Ideal S1000x128 .bf16) (ACC : Vec Ideal S128x2560 .f32) (d5 d6 : Vec Ideal S1000x2560 .f32)
    (hI : Inv m c t.val s0 y0 y1)
    (hrows : ∀ (r : Fin 10000) (o : Fin 128), r.val < 1000 * (t.val + 1) → Y0' (ix2 r o) = lin0 m c r o ∧ Y1' (ix2 r o) = lin1 m c r o)
    (h5 : ∀ (ii : Fin 1000) (o : Fin 128), V5 (ix2 ii o) = lin0 m c (rowOf (kOf t) ii) o)
    (h9 : ∀ (ii : Fin 1000) (o : Fin 128), V9 (ix2 ii o) = lin1 m c (rowOf (kOf t) ii) o)
    (hACC : (t.val % 10 = 0 ∧ ACC = k0_pay4 (F := Ideal) V5 V9 (a0blk m c t d5) (a1blk m c t d6))
      ∨ (t.val % 10 ≠ 0 ∧ ACC = k0_pay5 (F := Ideal) V5 V9 (a0blk m c t d5) (a1blk m c t d6) s0)) :
    Inv m c (t.val + 1) ACC Y0' Y1' := by
  refine ⟨hrows, ?_⟩
  intro hk o j hJ
  have e1 : col0 (t.val + 1) = col0 t.val := by
    unfold col0
    have : (t.val + 1) / 10 = t.val / 10 := by omega
    rw [this]
  have e2 : t.val % 10 = (t.val + 1) % 10 - 1 := by omega
  have hJ' : col0 t.val + j.val < 10000 := by rw [← e1]; exact hJ
  have eJ : (⟨col0 (t.val + 1) + j.val, hJ⟩ : Fin 10000) = ⟨col0 t.val + j.val, hJ'⟩ := Fin.ext (congrArg (· + j.val) e1)
  rw [acc_value m c t s0 y0 y1 V5 V9 ACC d5 d6 hI h5 h9 hACC o j hJ', eJ]
  exact runSum_congr _ _ e2 _ _

/-- After a stripe's last contraction block the accumulator holds, in every column that is a destination node, the
    result's value there. -/
theorem acc_last (t : Fin cfg0.N) (ht : t.val % 10 = 9) (s0 : Vec Ideal S128x2560 .f32) (y0 y1 : Vec Ideal S10000x128 .bf16)
    (V5 V9 : Vec Ideal S1000x128 .bf16) (ACC : Vec Ideal S128x2560 .f32) (d5 d6 : Vec Ideal S1000x2560 .f32)
    (hI : Inv m c t.val s0 y0 y1)
    (h5 : ∀ (ii : Fin 1000) (o : Fin 128), V5 (ix2 ii o) = lin0 m c (rowOf (kOf t) ii) o)
    (h9 : ∀ (ii : Fin 1000) (o : Fin 128), V9 (ix2 ii o) = lin1 m c (rowOf (kOf t) ii) o)
    (hACC : ACC = k0_pay5 (F := Ideal) V5 V9 (a0blk m c t d5) (a1blk m c t d6) s0)
    (o : Fin 128) (j : Fin 2560) (hJ : col0 t.val + j.val < 10000) :
    ACC (ix2 o j) = outVal m c ⟨col0 t.val + j.val, hJ⟩ o := by
  rw [acc_value m c t s0 y0 y1 V5 V9 ACC d5 d6 hI h5 h9 (.inr ⟨by omega, hACC⟩) o j hJ,
    runSum_congr _ _ ht _ (by omega)]
  exact runSum_outVal m c _ o

end Cert.KernelIdeal.Step

end
-- ==== Proof.StepOut.lean ====
import proofs.«179478_g15805479649410_cont_week2b_796_19_alg».proof.Proof.StepDefs
import proofs.«179478_g15805479649410_cont_week2b_796_19_alg».proof.Proof.BodyDefs
import proofs.«179478_g15805479649410_cont_week2b_796_19_alg».proof.Proof.PayloadIdeal
import Idealize.ShloMosaic.Lib.ValueIdx
import Idealize.ShloMosaic.Lib.Pipeline.Value

noncomputable section

namespace Cert.KernelIdeal.Step

open Cert.KernelIdeal Cert.KernelIdeal.Gen Cert.KernelIdeal.Body Cert.RelConv
open Idealize.ShloMosaic Idealize.ShloMosaic.TcCoe Idealize.ShloMosaic.ValueIdx

variable (m : (ℓ : Loc nD τ sig) → Buf (Elt Ideal) ℓ) (c : Dev nD)

/-- The output window's block at point t: block index (t / 10, 0); the transfer moves the rows that exist. -/
theorem win7_facts : ∀ t : Fin cfg0.N,
    win0_7.index t 0 = t.val / 10 ∧ win0_7.index t 1 = 0
    ∧ win0_7.xsize (grid0.coords t) 0 = min 2560 (10000 - 2560 * (t.val / 10)) ∧ win0_7.xsize (grid0.coords t) 1 = 128 :=
  (by decide +kernel : ∀ t : Fin grid0.N,
    win0_7.index t 0 = t.val / 10 ∧ win0_7.index t 1 = 0
    ∧ win0_7.xsize (grid0.coords t) 0 = min 2560 (10000 - 2560 * (t.val / 10)) ∧ win0_7.xsize (grid0.coords t) 1 = 128)

/-- The output block of a stripe's last point, on the rows that are destination nodes, is the result array's block:
    the accumulator transposed. -/
theorem out_block (t : Fin cfg0.N) (ht : t.val % 10 = 9) (ACC : Vec Ideal S128x2560 .f32)
    (hACC : ∀ (o : Fin 128) (j : Fin 2560) (hJ : col0 t.val + j.val < 10000), ACC (ix2 o j) = outVal m c ⟨col0 t.val + j.val, hJ⟩ o) :
    win0_7.cut (grid0.coords t) (k0_pay6 (F := Ideal) ACC) = (win0_7.blk t).view.read (Elt Ideal) (outArr m c) := by
  funext y
  obtain ⟨hi0, hi1, hx0, hx1⟩ := win7_facts t
  have hy0 : (y 0).val < win0_7.xsize (grid0.coords t) 0 := (y 0).isLt
  have hy1 : (y 1).val < win0_7.xsize (grid0.coords t) 1 := (y 1).isLt
  rw [hx0] at hy0; rw [hx1] at hy1
  have hj : (y 0).val < 2560 := by omega
  have hJ : col0 t.val + (y 0).val < 10000 := by unfold col0; omega
  show k0_pay6 (F := Ideal) ACC (win0_7.xinj (grid0.coords t) y) = _
  have e : win0_7.xinj (grid0.coords t) y = ix2 (⟨(y 0).val, hj⟩ : Fin 2560) (⟨(y 1).val, hy1⟩ : Fin 128) := by
    funext a
    match a with
    | ⟨0, _⟩ => rfl
    | ⟨1, _⟩ => rfl
  rw [e, PayloadIdeal.pay6_apply, hACC _ _ hJ, View.read_apply]
  show _ = outVal m c _ _
  refine congrArg₂ (outVal m c) (Fin.ext ?_) (Fin.ext ?_)
  · show col0 t.val + (y 0).val = win0_7.index t 0 * 2560 + 1 * (y 0).val
    rw [hi0]; unfold col0; omega
  · show (y 1).val = win0_7.index t 1 * 128 + 1 * (y 1).val
    rw [hi1]; omega

/-- An entry of the result array is in point t's block iff its row is among the stripe's rows that exist
    (the block spans all 128 columns). -/
theorem mem_blk7 (t : Fin cfg0.N) (i : S10000x128.Idx) :
    i ∈ (win0_7.blk t).view.set
      ↔ 2560 * (t.val / 10) ≤ (i 0).val ∧ (i 0).val < 2560 * (t.val / 10) + min 2560 (10000 - 2560 * (t.val / 10)) := by
  obtain ⟨hi0, hi1, hx0, hx1⟩ := win7_facts t
  have hc : (i 1).val < 128 := (i 1).isLt
  show i ∈ ((View.whole main_v2).slice (win0_7.rect t)).set ↔ _
  rw [View.set_slice_whole, Rect.mem_set_unit]
  constructor
  · intro h
    have h0 : win0_7.index t 0 * 2560 ≤ (i 0).val ∧ (i 0).val < win0_7.index t 0 * 2560 + win0_7.xsize (grid0.coords t) 0 := h 0
    rw [hi0, hx0] at h0
    omega
  · intro h a
    match a with
    | ⟨0, _⟩ =>
      show win0_7.index t 0 * 2560 ≤ (i 0).val ∧ (i 0).val < win0_7.index t 0 * 2560 + win0_7.xsize (grid0.coords t) 0
      rw [hi0, hx0]; omega
    | ⟨1, _⟩ =>
      show win0_7.index t 1 * 128 ≤ (i 1).val ∧ (i 1).val < win0_7.index t 1 * 128 + win0_7.xsize (grid0.coords t) 1
      rw [hi1, hx1]; omega

/-- Every entry of the result array lies in the block some stripe's last point writes back. -/
theorem out_cover (i : ((cfg0.win 7).arr.view.loc (c.tc : Thread nD τ)).2.ty.Idx) :
    ∃ t : Fin cfg0.N, (cfg0.win 7).flush t = true ∧ i ∈ ((cfg0.win 7).blk t).view.set := by
  have key : ∀ i : S10000x128.Idx, ∃ t : Fin cfg0.N, (cfg0.win 7).flush t = true ∧ i ∈ (win0_7.blk t).view.set := by
    intro i
    have hr : (i 0).val < 10000 := (i 0).isLt
    have hN : 10 * ((i 0).val / 2560) + 9 < cfg0.N := by
      show _ < grid0.N
      rw [N_0]; omega
    refine ⟨⟨_, hN⟩, (flush0_7 _).mpr (by show (10 * ((i 0).val / 2560) + 9) % 10 = 9; omega), ?_⟩
    rw [mem_blk7]
    show 2560 * ((10 * ((i 0).val / 2560) + 9) / 10) ≤ (i 0).val
      ∧ (i 0).val < 2560 * ((10 * ((i 0).val / 2560) + 9) / 10) + min 2560 (10000 - 2560 * ((10 * ((i 0).val / 2560) + 9) / 10))
    omega
  exact key i

end Cert.KernelIdeal.Step

end
-- ==== Proof.DataIdeal.lean ====
import proofs.«179478_g15805479649410_cont_week2b_796_19_alg».proof.Proof.BodyFirst
import proofs.«179478_g15805479649410_cont_week2b_796_19_alg».proof.Proof.BodyLater
import proofs.«179478_g15805479649410_cont_week2b_796_19_alg».proof.Proof.StepDefs
import proofs.«179478_g15805479649410_cont_week2b_796_19_alg».proof.Proof.StepRows
import proofs.«179478_g15805479649410_cont_week2b_796_19_alg».proof.Proof.StepPay
import proofs.«179478_g15805479649410_cont_week2b_796_19_alg».proof.Proof.StepInv
import proofs.«179478_g15805479649410_cont_week2b_796_19_alg».proof.Proof.StepOut

set_option maxRecDepth 16384

noncomputable section

namespace Cert.KernelIdeal.Data

open Cert.KernelIdeal Cert.KernelIdeal.Gen Cert.KernelIdeal.Body Cert.KernelIdeal.Step Cert.RelConv
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data at the ideal instance -/

/-- The three scratch buffers: the accumulator and the two affine maps. -/
abbrev sc0 : Memref sig .tc .vmem S128x2560 .f32 := Memref.whole cc0_scratch0
abbrev sc1 : Memref sig .tc .vmem S10000x128 .bf16 := Memref.whole cc0_scratch1
abbrev sc2 : Memref sig .tc .vmem S10000x128 .bf16 := Memref.whole cc0_scratch2

/-- The region's invariant before point `n`: the scratch buffers at SOME contents of which `Step.Inv` holds (the
    accumulator's columns past the last destination node hold what the overhanging adjacency blocks made of them),
    and the generator register at some state. -/
def PhiS (c : Dev nD) (n : ℕ) : sProp 𝕄 :=
  iprop(∃ (s0 : Vec Ideal S128x2560 .f32) (y0 y1 : Vec Ideal S10000x128 .bf16), ⌜Inv m c n s0 y0 y1⌝
    ∗ owns (c : Thread nD τ) sc0 fullShare s0 ∗ owns (c : Thread nD τ) sc1 fullShare y0 ∗ owns (c : Thread nD τ) sc2 fullShare y1
    ∗ (∃ r, prngReg c r))

/-- The output block of point `t`: the result array's block inside the array, a filler past its end. -/
def outBlk (c : Dev nD) (t : Fin cfg0.N) : Vec Ideal S2560x128 .f32 :=
  win0_7.fill (grid0.coords t) (fun _ => (0 : EReal)) ((win0_7.blk t).view.read (Elt Ideal) (outArr m c))

/-- The proof data: the arrays as the region finds them; after the body each resident input's buffer at its block, each
    adjacency buffer at its block inside the array, and the output's buffer, at a stripe's last point, at the result array's
    block inside the array (past the arrays' ends: a filler nothing reads). -/
def dats (_p : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => a0blk m c t (fun _ => (0 : EReal))
    | ⟨6, _⟩ => a1blk m c t (fun _ => (0 : EReal))
    | ⟨7, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = a0blk m c t (fun _ => (0 : EReal)) := by dsimp only [dats]
theorem after0_6 (c : Dev nD) (t : Fin cfg0.N) :
    (dats m 0 c).after 6 t = a1blk m c t (fun _ => (0 : EReal)) := by dsimp only [dats]
theorem after0_7 (c : Dev nD) (t : Fin cfg0.N) :
    (dats m 0 c).after 7 t = outBlk m c t := by
  dsimp only [dats]

/-- The resident inputs' buffers hold their blocks at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The adjacency buffers, fetched at every point, hold the block inside the array and anything past it. -/
theorem before0_5 (c : Dev nD) (t : Fin cfg0.N) (d) : (dats m 0 c).before 5 t d = a0blk m c t d := by
  unfold Dat.before; rw [if_pos (fetch0_5 t)]; unfold Dat.fetched Dat.blockOf a0blk iblk; rw [A_eq]; try rfl
theorem before0_6 (c : Dev nD) (t : Fin cfg0.N) (d) : (dats m 0 c).before 6 t d = a1blk m c t d := by
  unfold Dat.before; rw [if_pos (fetch0_6 t)]; unfold Dat.fetched Dat.blockOf a1blk iblk; rw [A_eq]; try rfl

theorem liveAt (w : Fin 8) (hw : w.val ≠ 7) (t : Fin cfg0.N) : cfg0.idle w (grid0.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, h => exact absurd rfl h

/-- The output window is idle, and not written back, off a stripe's last point. -/
theorem idle7 : ∀ t : Fin cfg0.N, cfg0.idle 7 (grid0.coords t) = true ↔ t.val % 10 ≠ 9 :=
  (by decide +kernel : ∀ t : Fin grid0.N, idle0 7 (grid0.coords t) = true ↔ t.val % 10 ≠ 9)

/-! ## What the body obligation hands over and takes back, window by window -/

theorem leaves0_0 (c : Dev nD) (t : Fin cfg0.N) :
    (dats m 0 c).leaves 0 t = owns (c : Thread nD τ) (st0_0 t) fullShare (iblk m c 0 t) := by
  unfold Dat.leaves; rw [liveAt 0 (by decide) t, ← after0_0 m c t]
theorem leaves0_1 (c : Dev nD) (t : Fin cfg0.N) :
    (dats m 0 c).leaves 1 t = owns (c : Thread nD τ) (st0_1 t) fullShare (iblk m c 1 t) := by
  unfold Dat.leaves; rw [liveAt 1 (by decide) t, ← after0_1 m c t]
theorem leaves0_2 (c : Dev nD) (t : Fin cfg0.N) :
    (dats m 0 c).leaves 2 t = owns (c : Thread nD τ) (st0_2 t) fullShare (iblk m c 2 t) := by
  unfold Dat.leaves; rw [liveAt 2 (by decide) t, ← after0_2 m c t]
theorem leaves0_3 (c : Dev nD) (t : Fin cfg0.N) :
    (dats m 0 c).leaves 3 t = owns (c : Thread nD τ) (st0_3 t) fullShare (iblk m c 3 t) := by
  unfold Dat.leaves; rw [liveAt 3 (by decide) t, ← after0_3 m c t]
theorem leaves0_4 (c : Dev nD) (t : Fin cfg0.N) :
    (dats m 0 c).leaves 4 t = owns (c : Thread nD τ) (st0_4 t) fullShare (iblk m c 4 t) := by
  unfold Dat.leaves; rw [liveAt 4 (by decide) t, ← after0_4 m c t]

/-- The adjacency windows may overhang: their buffers are handed back stated on the part inside the array. -/
theorem leaves0_5 (c : Dev nD) (t : Fin cfg0.N) :
    (dats m 0 c).leaves 5 t = iprop(∃ d, owns (c : Thread nD τ) (st0_5 t) fullShare (a0blk m c t d)) := by
  unfold Dat.leaves; rw [liveAt 5 (by decide) t]
  show iprop(∃ d, owns (c : Thread nD τ) (st0_5 t) fullShare (win0_5.fill (grid0.coords t) d (win0_5.cut (grid0.coords t) ((dats m 0 c).after 5 t)))) = _
  rw [after0_5]; unfold a0blk; simp only [Window.cut_fill]; rfl
theorem leaves0_6 (c : Dev nD) (t : Fin cfg0.N) :
    (dats m 0 c).leaves 6 t = iprop(∃ d, owns (c : Thread nD τ) (st0_6 t) fullShare (a1blk m c t d)) := by
  unfold Dat.leaves; rw [liveAt 6 (by decide) t]
  show iprop(∃ d, owns (c : Thread nD τ) (st0_6 t) fullShare (win0_6.fill (grid0.coords t) d (win0_6.cut (grid0.coords t) ((dats m 0 c).after 6 t)))) = _
  rw [after0_6]; unfold a1blk; simp only [Window.cut_fill]; rfl

/-- Off a stripe's last point the output's buffer is handed back as found; -/
theorem leaves0_7_idle (c : Dev nD) (t : Fin cfg0.N) (h9 : t.val % 10 ≠ 9) :
    (dats m 0 c).leaves 7 t = iprop(∃ d, owns (c : Thread nD τ) (st0_7 t) fullShare ((dats m 0 c).before 7 t d)) :=
  Dat.leaves_idle (dats m 0 c) 7 t ((idle7 t).mpr h9) (Bool.eq_false_iff.mpr fun h => h9 ((flush0_7 t).mp h))
/-- at it, stated on the rows that are destination nodes: the result array's block. -/
theorem leaves0_7_last (c : Dev nD) (t : Fin cfg0.N) (h9 : t.val % 10 = 9) :
    (dats m 0 c).leaves 7 t = iprop(∃ d, owns (c : Thread nD τ) (st0_7 t) fullShare
      (win0_7.fill (grid0.coords t) d ((win0_7.blk t).view.read (Elt Ideal) (outArr m c)))) := by
  unfold Dat.leaves; rw [Bool.eq_false_iff.mpr fun h => (idle7 t).mp h h9]
  show iprop(∃ d, owns (c : Thread nD τ) (st0_7 t) fullShare (win0_7.fill (grid0.coords t) d (win0_7.cut (grid0.coords t) ((dats m 0 c).after 7 t)))) = _
  rw [after0_7]; unfold outBlk; simp only [Window.cut_fill]

/-- The invariant at a point's two ends. -/
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t ∗ (dats m 0 c).leaves 7 t)

end Cert.KernelIdeal.Data
end
-- ==== Proof.DataCases.lean ====
import proofs.«179478_g15805479649410_cont_week2b_796_19_alg».proof.Proof.DataIdeal

set_option maxRecDepth 16384

/-! The body obligation's step, once per control case of the kernel body: from the invariant and the buffers as the
pipeline hands them over at point `t`, the case's run of the body gives back the invariant at `t + 1` (the pure step
lemmas) and every buffer as the obligation states it. -/

noncomputable section

namespace Cert.KernelIdeal.Data

open Cert.KernelIdeal Cert.KernelIdeal.Gen Cert.KernelIdeal.Body Cert.KernelIdeal.Step Cert.RelConv
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
theorem sound_first_first (c : Dev nD) (t : Fin cfg0.N) (h1 : t.val < 10) (h0 : t.val % 10 = 0) :
    bodyPre m c t ⊢ wp frame (wpE (defs₀ (F := Ideal)) Variants.none c none) Set.univ (bodyAt0 t) (fun _ => bodyPost m c t) := by
    unfold bodyPre bodyPost bodyAt0
    simp only [before0_0, before0_1, before0_2, before0_3, before0_4, before0_5, before0_6]
    rw [Phi_castSucc, Phi_succ, show (dats m 0 c).owesAt () t.succ = (dats m 0 c).owesAt () t.castSucc from rfl,
      leaves0_0, leaves0_1, leaves0_2, leaves0_3, leaves0_4, leaves0_5, leaves0_6]
    have hN : t.val < 40 := lt_of_lt_of_eq t.isLt (show cfg0.N = 40 from N_0)
    unfold PhiS
    have hc1 : firstStripe (grid0.coords t) := (firstStripe_iff t).mpr h1
    rw [leaves0_7_idle m c t (by omega)]
    iintro ⟨⟨%s0, %y0, %y1, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first_first (F := Ideal) c (grid0.coords t) _ _ _ _ _ _ _ _ _ _ _ _ _ _ _ _ _ _ _ _ _ _ hc1 ((firstBlock_iff t).mpr h0) (fun h => (laterBlock_iff t).mp h h0) (fun h => by have := (lastBlock_iff t).mp h; omega)
      (iblk m c 0 t) (iblk m c 1 t) (iblk m c 2 t) (iblk m c 3 t) (iblk m c 4 t) (a0blk m c t d5) (a1blk m c t d6)
      ((dats m 0 c).before 7 t d7) s0 y0 y1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%f1, %hR0, HS1⟩, ⟨%f2, %hR1, HS2⟩⟩
    have hrows := rows_first m c t h1 s0 y0 y1 _ _ _ _ hI (pay1_rows m c t hc1) (pay2_rows m c t hc1) hR0 hR1
    have h5 := pay1_rows m c t hc1
    have h9' := pay2_rows m c t hc1
    isplitl [HS0 HS1 HS2 Hg]
    · iexists _, _, _; isplitr; swap
      · isplitl [HS0]; · iexact HS0
        isplitl [HS1]
        · unfold owns; iexists _; isplitr; swap; · iexact HS1
          ipureintro; rfl
        isplitl [HS2]
        · unfold owns; iexists _; isplitr; swap; · iexact HS2
          ipureintro; rfl
        iexact Hg
      ipureintro
      exact inv_succ m c t s0 y0 y1 _ _ _ _ _ d5 d6 hI hrows h5 h9' (Or.inl ⟨h0, rfl⟩)
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists d7; iexact H7

set_option maxHeartbeats 4000000 in
theorem sound_first_mid (c : Dev nD) (t : Fin cfg0.N) (h1 : t.val < 10) (h0 : t.val % 10 ≠ 0) (h9 : t.val % 10 ≠ 9) :
    bodyPre m c t ⊢ wp frame (wpE (defs₀ (F := Ideal)) Variants.none c none) Set.univ (bodyAt0 t) (fun _ => bodyPost m c t) := by
    unfold bodyPre bodyPost bodyAt0
    simp only [before0_0, before0_1, before0_2, before0_3, before0_4, before0_5, before0_6]
    rw [Phi_castSucc, Phi_succ, show (dats m 0 c).owesAt () t.succ = (dats m 0 c).owesAt () t.castSucc from rfl,
      leaves0_0, leaves0_1, leaves0_2, leaves0_3, leaves0_4, leaves0_5, leaves0_6]
    have hN : t.val < 40 := lt_of_lt_of_eq t.isLt (show cfg0.N = 40 from N_0)
    unfold PhiS
    have hc1 : firstStripe (grid0.coords t) := (firstStripe_iff t).mpr h1
    rw [leaves0_7_idle m c t h9]
    iintro ⟨⟨%s0, %y0, %y1, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first_mid (F := Ideal) c (grid0.coords t) _ _ _ _ _ _ _ _ _ _ _ _ _ _ _ _ _ _ _ _ _ _ hc1 (fun h => h0 ((firstBlock_iff t).mp h)) ((laterBlock_iff t).mpr h0) (fun h => h9 ((lastBlock_iff t).mp h))
      (iblk m c 0 t) (iblk m c 1 t) (iblk m c 2 t) (iblk m c 3 t) (iblk m c 4 t) (a0blk m c t d5) (a1blk m c t d6)
      ((dats m 0 c).before 7 t d7) s0 y0 y1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%f1, %hR0, HS1⟩, ⟨%f2, %hR1, HS2⟩⟩
    have hrows := rows_first m c t h1 s0 y0 y1 _ _ _ _ hI (pay1_rows m c t hc1) (pay2_rows m c t hc1) hR0 hR1
    have h5 := pay1_rows m c t hc1
    have h9' := pay2_rows m c t hc1
    isplitl [HS0 HS1 HS2 Hg]
    · iexists _, _, _; isplitr; swap
      · isplitl [HS0]; · iexact HS0
        isplitl [HS1]
        · unfold owns; iexists _; isplitr; swap; · iexact HS1
          ipureintro; rfl
        isplitl [HS2]
        · unfold owns; iexists _; isplitr; swap; · iexact HS2
          ipureintro; rfl
        iexact Hg
      ipureintro
      exact inv_succ m c t s0 y0 y1 _ _ _ _ _ d5 d6 hI hrows h5 h9' (Or.inr ⟨h0, rfl⟩)
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists d7; iexact H7

set_option maxHeartbeats 4000000 in
theorem sound_first_last (c : Dev nD) (t : Fin cfg0.N) (h1 : t.val < 10) (h9 : t.val % 10 = 9) :
    bodyPre m c t ⊢ wp frame (wpE (defs₀ (F := Ideal)) Variants.none c none) Set.univ (bodyAt0 t) (fun _ => bodyPost m c t) := by
    unfold bodyPre bodyPost bodyAt0
    simp only [before0_0, before0_1, before0_2, before0_3, before0_4, before0_5, before0_6]
    rw [Phi_castSucc, Phi_succ, show (dats m 0 c).owesAt () t.succ = (dats m 0 c).owesAt () t.castSucc from rfl,
      leaves0_0, leaves0_1, leaves0_2, leaves0_3, leaves0_4, leaves0_5, leaves0_6]
    have hN : t.val < 40 := lt_of_lt_of_eq t.isLt (show cfg0.N = 40 from N_0)
    unfold PhiS
    have hc1 : firstStripe (grid0.coords t) := (firstStripe_iff t).mpr h1
    rw [leaves0_7_last m c t h9]
    iintro ⟨⟨%s0, %y0, %y1, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first_last (F := Ideal) c (grid0.coords t) _ _ _ _ _ _ _ _ _ _ _ _ _ _ _ _ _ _ _ _ _ _ hc1 (fun h => by have := (firstBlock_iff t).mp h; omega) ((laterBlock_iff t).mpr (by omega)) ((lastBlock_iff t).mpr h9)
      (iblk m c 0 t) (iblk m c 1 t) (iblk m c 2 t) (iblk m c 3 t) (iblk m c 4 t) (a0blk m c t d5) (a1blk m c t d6)
      ((dats m 0 c).before 7 t d7) s0 y0 y1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, ⟨%f1, %hR0, HS1⟩, ⟨%f2, %hR1, HS2⟩⟩
    have hrows := rows_first m c t h1 s0 y0 y1 _ _ _ _ hI (pay1_rows m c t hc1) (pay2_rows m c t hc1) hR0 hR1
    have h5 := pay1_rows m c t hc1
    have h9' := pay2_rows m c t hc1
    isplitl [HS0 HS1 HS2 Hg]
    · iexists _, _, _; isplitr; swap
      · isplitl [HS0]; · iexact HS0
        isplitl [HS1]
        · unfold owns; iexists _; isplitr; swap; · iexact HS1
          ipureintro; rfl
        isplitl [HS2]
        · unfold owns; iexists _; isplitr; swap; · iexact HS2
          ipureintro; rfl
        iexact Hg
      ipureintro
      exact inv_succ m c t s0 y0 y1 _ _ _ _ _ d5 d6 hI hrows h5 h9' (Or.inr ⟨(by omega), rfl⟩)
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists (k0_pay6 (F := Ideal) _)
    rw [← out_block m c t h9 _ (fun o j hJ => acc_last m c t h9 s0 y0 y1 _ _ _ d5 d6 hI h5 h9' rfl o j hJ), Window.fill_cut]
    iexact H7

set_option maxHeartbeats 4000000 in
theorem sound_later_first (c : Dev nD) (t : Fin cfg0.N) (h1 : ¬t.val < 10) (h0 : t.val % 10 = 0) :
    bodyPre m c t ⊢ wp frame (wpE (defs₀ (F := Ideal)) Variants.none c none) Set.univ (bodyAt0 t) (fun _ => bodyPost m c t) := by
    unfold bodyPre bodyPost bodyAt0
    simp only [before0_0, before0_1, before0_2, before0_3, before0_4, before0_5, before0_6]
    rw [Phi_castSucc, Phi_succ, show (dats m 0 c).owesAt () t.succ = (dats m 0 c).owesAt () t.castSucc from rfl,
      leaves0_0, leaves0_1, leaves0_2, leaves0_3, leaves0_4, leaves0_5, leaves0_6]
    have hN : t.val < 40 := lt_of_lt_of_eq t.isLt (show cfg0.N = 40 from N_0)
    unfold PhiS
    have hc1 : ¬firstStripe (grid0.coords t) := fun h => h1 ((firstStripe_iff t).mp h)
    rw [leaves0_7_idle m c t (by omega)]
    iintro ⟨⟨%s0, %y0, %y1, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later_first (F := Ideal) c (grid0.coords t) _ _ _ _ _ _ _ _ _ _ _ _ _ _ _ _ _ _ _ _ _ _ hc1 ((firstBlock_iff t).mpr h0) (fun h => (laterBlock_iff t).mp h h0) (fun h => by have := (lastBlock_iff t).mp h; omega)
      (iblk m c 0 t) (iblk m c 1 t) (iblk m c 2 t) (iblk m c 3 t) (iblk m c 4 t) (a0blk m c t d5) (a1blk m c t d6)
      ((dats m 0 c).before 7 t d7) s0 y0 y1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    have hrows := rows_later m c t (by omega) s0 y0 y1 hI
    have h5 := fun ii o => (ld_rows m c t y0 y1 hrows ii o).1
    have h9' := fun ii o => (ld_rows m c t y0 y1 hrows ii o).2
    isplitl [HS0 HS1 HS2 Hg]
    · iexists _, _, _; isplitr; swap
      · isplitl [HS0]; · iexact HS0
        isplitl [HS1]
        · iexact HS1
        isplitl [HS2]
        · iexact HS2
        iexact Hg
      ipureintro
      exact inv_succ m c t s0 y0 y1 _ _ _ _ _ d5 d6 hI hrows h5 h9' (Or.inl ⟨h0, rfl⟩)
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists d7; iexact H7

set_option maxHeartbeats 4000000 in
theorem sound_later_mid (c : Dev nD) (t : Fin cfg0.N) (h1 : ¬t.val < 10) (h0 : t.val % 10 ≠ 0) (h9 : t.val % 10 ≠ 9) :
    bodyPre m c t ⊢ wp frame (wpE (defs₀ (F := Ideal)) Variants.none c none) Set.univ (bodyAt0 t) (fun _ => bodyPost m c t) := by
    unfold bodyPre bodyPost bodyAt0
    simp only [before0_0, before0_1, before0_2, before0_3, before0_4, before0_5, before0_6]
    rw [Phi_castSucc, Phi_succ, show (dats m 0 c).owesAt () t.succ = (dats m 0 c).owesAt () t.castSucc from rfl,
      leaves0_0, leaves0_1, leaves0_2, leaves0_3, leaves0_4, leaves0_5, leaves0_6]
    have hN : t.val < 40 := lt_of_lt_of_eq t.isLt (show cfg0.N = 40 from N_0)
    unfold PhiS
    have hc1 : ¬firstStripe (grid0.coords t) := fun h => h1 ((firstStripe_iff t).mp h)
    rw [leaves0_7_idle m c t h9]
    iintro ⟨⟨%s0, %y0, %y1, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later_mid (F := Ideal) c (grid0.coords t) _ _ _ _ _ _ _ _ _ _ _ _ _ _ _ _ _ _ _ _ _ _ hc1 (fun h => h0 ((firstBlock_iff t).mp h)) ((laterBlock_iff t).mpr h0) (fun h => h9 ((lastBlock_iff t).mp h))
      (iblk m c 0 t) (iblk m c 1 t) (iblk m c 2 t) (iblk m c 3 t) (iblk m c 4 t) (a0blk m c t d5) (a1blk m c t d6)
      ((dats m 0 c).before 7 t d7) s0 y0 y1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    have hrows := rows_later m c t (by omega) s0 y0 y1 hI
    have h5 := fun ii o => (ld_rows m c t y0 y1 hrows ii o).1
    have h9' := fun ii o => (ld_rows m c t y0 y1 hrows ii o).2
    isplitl [HS0 HS1 HS2 Hg]
    · iexists _, _, _; isplitr; swap
      · isplitl [HS0]; · iexact HS0
        isplitl [HS1]
        · iexact HS1
        isplitl [HS2]
        · iexact HS2
        iexact Hg
      ipureintro
      exact inv_succ m c t s0 y0 y1 _ _ _ _ _ d5 d6 hI hrows h5 h9' (Or.inr ⟨h0, rfl⟩)
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists d7; iexact H7

set_option maxHeartbeats 4000000 in
theorem sound_later_last (c : Dev nD) (t : Fin cfg0.N) (h1 : ¬t.val < 10) (h9 : t.val % 10 = 9) :
    bodyPre m c t ⊢ wp frame (wpE (defs₀ (F := Ideal)) Variants.none c none) Set.univ (bodyAt0 t) (fun _ => bodyPost m c t) := by
    unfold bodyPre bodyPost bodyAt0
    simp only [before0_0, before0_1, before0_2, before0_3, before0_4, before0_5, before0_6]
    rw [Phi_castSucc, Phi_succ, show (dats m 0 c).owesAt () t.succ = (dats m 0 c).owesAt () t.castSucc from rfl,
      leaves0_0, leaves0_1, leaves0_2, leaves0_3, leaves0_4, leaves0_5, leaves0_6]
    have hN : t.val < 40 := lt_of_lt_of_eq t.isLt (show cfg0.N = 40 from N_0)
    unfold PhiS
    have hc1 : ¬firstStripe (grid0.coords t) := fun h => h1 ((firstStripe_iff t).mp h)
    rw [leaves0_7_last m c t h9]
    iintro ⟨⟨%s0, %y0, %y1, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later_last (F := Ideal) c (grid0.coords t) _ _ _ _ _ _ _ _ _ _ _ _ _ _ _ _ _ _ _ _ _ _ hc1 (fun h => by have := (firstBlock_iff t).mp h; omega) ((laterBlock_iff t).mpr (by omega)) ((lastBlock_iff t).mpr h9)
      (iblk m c 0 t) (iblk m c 1 t) (iblk m c 2 t) (iblk m c 3 t) (iblk m c 4 t) (a0blk m c t d5) (a1blk m c t d6)
      ((dats m 0 c).before 7 t d7) s0 y0 y1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    have hrows := rows_later m c t (by omega) s0 y0 y1 hI
    have h5 := fun ii o => (ld_rows m c t y0 y1 hrows ii o).1
    have h9' := fun ii o => (ld_rows m c t y0 y1 hrows ii o).2
    isplitl [HS0 HS1 HS2 Hg]
    · iexists _, _, _; isplitr; swap
      · isplitl [HS0]; · iexact HS0
        isplitl [HS1]
        · iexact HS1
        isplitl [HS2]
        · iexact HS2
        iexact Hg
      ipureintro
      exact inv_succ m c t s0 y0 y1 _ _ _ _ _ d5 d6 hI hrows h5 h9' (Or.inr ⟨(by omega), rfl⟩)
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists (k0_pay6 (F := Ideal) _)
    rw [← out_block m c t h9 _ (fun o j hJ => acc_last m c t h9 s0 y0 y1 _ _ _ d5 d6 hI h5 h9' rfl o j hJ), Window.fill_cut]
    iexact H7

end Cert.KernelIdeal.Data
end
-- ==== Proof.DataRun.lean ====
import proofs.«179478_g15805479649410_cont_week2b_796_19_alg».proof.Proof.DataCases

set_option maxRecDepth 16384

noncomputable section

namespace Cert.KernelIdeal.Data

open Cert.KernelIdeal Cert.KernelIdeal.Gen Cert.KernelIdeal.Body Cert.KernelIdeal.Step Cert.RelConv
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body at every point: the case the point's coordinates select. -/
theorem sound_body (c : Dev nD) (t : Fin cfg0.N) :
    bodyPre m c t ⊢ wp frame (wpE (defs₀ (F := Ideal)) Variants.none c none) Set.univ (bodyAt0 t) (fun _ => bodyPost m c t) := by
  by_cases h1 : t.val < 10
  · by_cases h0 : t.val % 10 = 0
    · exact sound_first_first m c t h1 h0
    · by_cases h9 : t.val % 10 = 9
      · exact sound_first_last m c t h1 h9
      · exact sound_first_mid m c t h1 h0 h9
  · by_cases h0 : t.val % 10 = 0
    · exact sound_later_first m c t h1 h0
    · by_cases h9 : t.val % 10 = 9
      · exact sound_later_last m c t h1 h9
      · exact sound_later_mid m c t h1 h0 h9

theorem body_obligation (c : Dev nD) : BodyObligationLoose (dats m 0 c) (defs₀ (F := Ideal)) Variants.none () Set.univ := fun t => by
  rw [bigSep_W0, bigSep_W0]
  exact sound_body m c t

/-- Before the first point the scratch buffers hold anything: the invariant asks nothing of them. -/
theorem hin (c : Dev nD) : Pipeline.ΦA spec0 c ⊢ (dats m 0 c).Φ 0 := by
  rw [show (dats m 0 c).Φ 0 = PhiS m c 0 from rfl]
  unfold Pipeline.ΦA PhiS
  rw [scopedRest0_eq]
  simp only [owns_whole_eq]
  iintro ⟨⟨⟨%f0, H0⟩, ⟨%f1, H1⟩, ⟨%f2, H2⟩⟩, Hg⟩
  iexists f0, f1, f2
  isplitr; · ipureintro; exact inv_zero m c _ _ _
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexact Hg

/-- After the last point what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl]
  unfold Pipeline.ΦA PhiS
  rw [scopedRest0_eq]
  simp only [owns_whole_eq]
  iintro ⟨%s0, %y0, %y1, -, ⟨%f0, -, H0⟩, ⟨%f1, -, H1⟩, ⟨%f2, -, H2⟩, Hg⟩
  isplitr [Hg]
  · isplitl [H0]; · iexists f0; iexact H0
    isplitl [H1]; · iexists f1; iexact H1
    iexists f2; iexact H2
  iexact Hg

/-! ## The run -/

set_option backward.isDefEq.respectTransparency.types false in
/-- Every weakly fair execution of @main terminates; every array of the pipeline ends at what the proof data compute, every
    other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The result array ends holding `outArr`: the stripes' last points write back its blocks, which cover it. -/
theorem final_out (c : Dev nD) : (dats m 0 c).arrAt 7 cfg0.N = outArr m c :=
  (dats m 0 c).arrAt_eq_of_cover 7 (outArr m c) (fun t _ => by
    show win0_7.cut (grid0.coords t) ((dats m 0 c).after 7 t) = _
    rw [after0_7]; unfold outBlk; exact Window.cut_fill _ _ _ _) (out_cover c)

/-- The idealized kernel's frame. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The idealized kernel's run with its result named: the result array ends at `outArr`, the arguments unchanged. -/
theorem run_value : θ_run defs (onTc (τ := τ) (main (F := Ideal))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final_out m c),
      ((h c).1 5).trans (((dats m 0 c).arrAt_in 5 rfl _).trans ((A_eq m c 5).trans (V_main_arg0 m c))),
      ((h c).1 6).trans (((dats m 0 c).arrAt_in 6 rfl _).trans ((A_eq m c 6).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).1 3).trans (((dats m 0 c).arrAt_in 3 rfl _).trans ((A_eq m c 3).trans (V_main_arg5 m c))),
      ((h c).2 main_arg6 (Pipeline.mem_restRefs_of main_arg6 (by decide) (by decide))).trans (V_main_arg6 m c)⟩)
    (run_main m ρ)

end Cert.KernelIdeal.Data
end
-- ==== Proof.RefSide.lean ====
import proofs.«179478_g15805479649410_cont_week2b_796_19_alg».proof.Proof.Gen.ReferenceIdeal.Run
import proofs.«179478_g15805479649410_cont_week2b_796_19_alg».proof.Proof.Gen.ReferenceIdeal.Read
import proofs.«179478_g15805479649410_cont_week2b_796_19_alg».proof.Proof.BlockSum

noncomputable section

namespace Cert.ReferenceIdeal.RefSide

open Cert.ReferenceIdeal Cert.ReferenceIdeal.Gen Idealize.ShloMosaic Idealize.ShloMosaic.TcCoe Idealize.SL.Sem
open Finset BigOperators

/-! ## Index equations: the reference's index maps at coordinates -/

section IndexEquations
open Cert.ReferenceIdeal.Read ValueIdx

/-- Transposing a square 10000 x 10000 index swaps its coordinates. -/
theorem idx_v1_ix2 (a b : Fin 10000) : idx_main_v1 (ix2 a b) = ix2 b a :=
  funext fun d => Fin.ext (by match d with | ⟨0, _⟩ => rfl | ⟨1, _⟩ => rfl)

theorem idx_v9_ix2 (a b : Fin 10000) : idx_main_v9 (ix2 a b) = ix2 b a :=
  funext fun d => Fin.ext (by match d with | ⟨0, _⟩ => rfl | ⟨1, _⟩ => rfl)

/-- Transposing a 128 x 128 index swaps its coordinates. -/
theorem idx_v2_ix2 (a b : Fin 128) : idx_main_v2 (ix2 a b) = ix2 b a :=
  funext fun d => Fin.ext (by match d with | ⟨0, _⟩ => rfl | ⟨1, _⟩ => rfl)

theorem idx_v10_ix2 (a b : Fin 128) : idx_main_v10 (ix2 a b) = ix2 b a :=
  funext fun d => Fin.ext (by match d with | ⟨0, _⟩ => rfl | ⟨1, _⟩ => rfl)

/-- The feature product reads row I of the left operand at the contracted place. -/
theorem lidx_v3_ix2 (I : Fin 10000) (o k : Fin 128) : lidx_main_v3 (ix2 I o) k = ix2 I k :=
  funext fun d => Fin.ext (by match d with | ⟨0, _⟩ => rfl | ⟨1, _⟩ => rfl)

theorem ridx_v3_ix2 (I : Fin 10000) (o k : Fin 128) : ridx_main_v3 (ix2 I o) k = ix2 k o :=
  funext fun d => Fin.ext (by match d with | ⟨0, _⟩ => rfl | ⟨1, _⟩ => rfl)

theorem lidx_v11_ix2 (I : Fin 10000) (o k : Fin 128) : lidx_main_v11 (ix2 I o) k = ix2 I k :=
  funext fun d => Fin.ext (by match d with | ⟨0, _⟩ => rfl | ⟨1, _⟩ => rfl)

theorem ridx_v11_ix2 (I : Fin 10000) (o k : Fin 128) : ridx_main_v11 (ix2 I o) k = ix2 k o :=
  funext fun d => Fin.ext (by match d with | ⟨0, _⟩ => rfl | ⟨1, _⟩ => rfl)

/-- The bias is read at the column alone: first through the row broadcast, then through the added unit axis. -/
theorem idx_v4_v5_ix2 (I : Fin 10000) (o : Fin 128) : idx_main_v4 (idx_main_v5 (ix2 I o)) = ix1 o :=
  funext fun d => Fin.ext (by match d with | ⟨0, _⟩ => rfl)

theorem idx_v12_v13_ix2 (I : Fin 10000) (o : Fin 128) : idx_main_v12 (idx_main_v13 (ix2 I o)) = ix1 o :=
  funext fun d => Fin.ext (by match d with | ⟨0, _⟩ => rfl)

/-- The aggregation reads row J of the transposed adjacency at the contracted place. -/
theorem lidx_v7_ix2 (J : Fin 10000) (o : Fin 128) (k : Fin 10000) : lidx_main_v7 (ix2 J o) k = ix2 J k :=
  funext fun d => Fin.ext (by match d with | ⟨0, _⟩ => rfl | ⟨1, _⟩ => rfl)

theorem ridx_v7_ix2 (J : Fin 10000) (o : Fin 128) (k : Fin 10000) : ridx_main_v7 (ix2 J o) k = ix2 k o :=
  funext fun d => Fin.ext (by match d with | ⟨0, _⟩ => rfl | ⟨1, _⟩ => rfl)

theorem lidx_v15_ix2 (J : Fin 10000) (o : Fin 128) (k : Fin 10000) : lidx_main_v15 (ix2 J o) k = ix2 J k :=
  funext fun d => Fin.ext (by match d with | ⟨0, _⟩ => rfl | ⟨1, _⟩ => rfl)

theorem ridx_v15_ix2 (J : Fin 10000) (o : Fin 128) (k : Fin 10000) : ridx_main_v15 (ix2 J o) k = ix2 k o :=
  funext fun d => Fin.ext (by match d with | ⟨0, _⟩ => rfl | ⟨1, _⟩ => rfl)

end IndexEquations

/-! ## The stages at coordinates, over arbitrary argument arrays -/

section Stages
open Cert.ReferenceIdeal.Read ValueIdx Cert.RelConv

variable (x0 x1 : (⟨S10000x10000, .f32⟩ : BufTy).Contents (Elt Ideal))
  (x2 : (⟨S10000x128, .f32⟩ : BufTy).Contents (Elt Ideal))
  (x3 x5 : (⟨S128x128, .f32⟩ : BufTy).Contents (Elt Ideal))
  (x4 x6 : (⟨S128, .f32⟩ : BufTy).Contents (Elt Ideal))

/-- A rank-2 array as a function of its two coordinates. -/
abbrev fn2 {n0 n1 : Nat} (x : (⟨2, ![n0, n1]⟩ : Shape).Idx → EReal) (a : Fin n0) (b : Fin n1) : EReal := x (ix2 a b)
/-- A rank-1 array as a function of its coordinate. -/
abbrev fn1 {n : Nat} (x : (⟨1, ![n]⟩ : Shape).Idx → EReal) (a : Fin n) : EReal := x (ix1 a)

/-- The first relation's affine map (x W0^T + b0) at row I and column o. -/
theorem v6_ix2 (I : Fin 10000) (o : Fin 128) :
    val_main_v6 (F := Ideal) x2 x3 x4 (ix2 I o) = lin (fn2 x2) (fn2 x3) (fn1 x4) I o := by
  rw [val_main_v6_apply, val_main_v3_apply, val_main_v5_apply, val_main_v4_apply, idx_v4_v5_ix2]
  simp only [val_main_v2_apply, lidx_v3_ix2, ridx_v3_ix2, idx_v2_ix2, Ideal.addf_def]
  rfl

/-- The second relation's affine map (x W1^T + b1) at row I and column o. -/
theorem v14_ix2 (I : Fin 10000) (o : Fin 128) :
    val_main_v14 (F := Ideal) x2 x5 x6 (ix2 I o) = lin (fn2 x2) (fn2 x5) (fn1 x6) I o := by
  rw [val_main_v14_apply, val_main_v11_apply, val_main_v13_apply, val_main_v12_apply, idx_v12_v13_ix2]
  simp only [val_main_v10_apply, lidx_v11_ix2, ridx_v11_ix2, idx_v10_ix2, Ideal.addf_def]
  rfl

/-- The first relation's aggregation A0^T (x W0^T + b0) at row J and column o. -/
theorem v7_ix2 (J : Fin 10000) (o : Fin 128) :
    val_main_v7 (F := Ideal) x0 x2 x3 x4 (ix2 J o)
      = ∑ I : Fin 10000, fn2 x0 I J * lin (fn2 x2) (fn2 x3) (fn1 x4) I o := by
  rw [val_main_v7_apply]
  refine Finset.sum_congr rfl fun k _ => ?_
  rw [lidx_v7_ix2, ridx_v7_ix2, val_main_v1_apply, idx_v1_ix2, v6_ix2]

/-- The second relation's aggregation A1^T (x W1^T + b1) at row J and column o. -/
theorem v15_ix2 (J : Fin 10000) (o : Fin 128) :
    val_main_v15 (F := Ideal) x1 x2 x5 x6 (ix2 J o)
      = ∑ I : Fin 10000, fn2 x1 I J * lin (fn2 x2) (fn2 x5) (fn1 x6) I o := by
  rw [val_main_v15_apply]
  refine Finset.sum_congr rfl fun k _ => ?_
  rw [lidx_v15_ix2, ridx_v15_ix2, val_main_v9_apply, idx_v9_ix2, v14_ix2]

/-- The whole reference at row J and column o: zero, plus the first aggregation, plus the second. -/
theorem v16_ix2 (J : Fin 10000) (o : Fin 128) :
    val_main_v16 (F := Ideal) x0 x1 x2 x3 x4 x5 x6 (ix2 J o)
      = conv (fn2 x0) (fn2 x1) (fn2 x2) (fn2 x3) (fn1 x4) (fn2 x5) (fn1 x6) J o := by
  rw [val_main_v16_apply, val_main_v8_apply, val_main_v0_apply, val_main_cst_apply, v7_ix2, v15_ix2]
  simp only [Ideal.addf_def, Ideal.ofBits_def, Ideal.ofBits_zero_f32]
  rfl

end Stages

/-! ## The run's result as a function of the argument arrays at coordinates -/

section Result
open ValueIdx

variable (m : (ℓ : Loc nD τ sig) → Buf (Elt Ideal) ℓ) (c : Dev nD)

/-- The first relation's adjacency A0 at (I, J). -/
def argA0 (I J : Fin 10000) : EReal :=
  (m ((c.tc : Thread nD τ).loc main_arg0) : (⟨S10000x10000, .f32⟩ : BufTy).Contents (Elt Ideal)) (ix2 I J)
/-- The second relation's adjacency A1 at (I, J). -/
def argA1 (I J : Fin 10000) : EReal :=
  (m ((c.tc : Thread nD τ).loc main_arg1) : (⟨S10000x10000, .f32⟩ : BufTy).Contents (Elt Ideal)) (ix2 I J)
/-- The node features x at (I, d). -/
def argX (I : Fin 10000) (d : Fin 128) : EReal :=
  (m ((c.tc : Thread nD τ).loc main_arg2) : (⟨S10000x128, .f32⟩ : BufTy).Contents (Elt Ideal)) (ix2 I d)
/-- The first relation's weight W0 at (o, d). -/
def argW0 (o d : Fin 128) : EReal :=
  (m ((c.tc : Thread nD τ).loc main_arg3) : (⟨S128x128, .f32⟩ : BufTy).Contents (Elt Ideal)) (ix2 o d)
/-- The first relation's bias b0 at o. -/
def argB0 (o : Fin 128) : EReal :=
  (m ((c.tc : Thread nD τ).loc main_arg4) : (⟨S128, .f32⟩ : BufTy).Contents (Elt Ideal)) (ix1 o)
/-- The second relation's weight W1 at (o, d). -/
def argW1 (o d : Fin 128) : EReal :=
  (m ((c.tc : Thread nD τ).loc main_arg5) : (⟨S128x128, .f32⟩ : BufTy).Contents (Elt Ideal)) (ix2 o d)
/-- The second relation's bias b1 at o. -/
def argB1 (o : Fin 128) : EReal :=
  (m ((c.tc : Thread nD τ).loc main_arg6) : (⟨S128, .f32⟩ : BufTy).Contents (Elt Ideal)) (ix1 o)

/-- The term every execution of the reference leaves in its result array: the eighteen operations composed,
    applied to the argument arrays at launch. It is one term for every float family; the family is read off the
    memory it is applied to. -/
def refOut {F : FTy → Type} [FloatOps F] (m : (ℓ : Loc nD τ sig) → Buf (Elt F) ℓ) (c : Dev nD) :
    Buf (Elt F) ((c.tc : Thread nD τ).loc main_v16) :=
  (addf (addf (broadcastInDim S10000x128 ![] bcast_S_S10000x128 (constant S_ .f32 0x00000000#32)) (Host.dotGeneral dot_S10000x10000_S10000x128_S10000x128_1_0_0_1_n_n none (transpose S10000x10000 [1, 0] (m ((c.tc : Thread nD τ).loc main_arg0)) transposes_S10000x10000_S10000x10000_1_0) (addf (Host.dotGeneral dot_S10000x128_S128x128_S10000x128_1_0_0_1_n_n none (m ((c.tc : Thread nD τ).loc main_arg2)) (transpose S128x128 [1, 0] (m ((c.tc : Thread nD τ).loc main_arg3)) transposes_S128x128_S128x128_1_0)) (broadcastInDim S10000x128 ![0, 1] bcast_S1x128_S10000x128_0_1 (broadcastInDim S1x128 ![1] bcast_S128_S1x128_1 (m ((c.tc : Thread nD τ).loc main_arg4))))))) (Host.dotGeneral dot_S10000x10000_S10000x128_S10000x128_1_0_0_1_n_n none (transpose S10000x10000 [1, 0] (m ((c.tc : Thread nD τ).loc main_arg1)) transposes_S10000x10000_S10000x10000_1_0) (addf (Host.dotGeneral dot_S10000x128_S128x128_S10000x128_1_0_0_1_n_n none (m ((c.tc : Thread nD τ).loc main_arg2)) (transpose S128x128 [1, 0] (m ((c.tc : Thread nD τ).loc main_arg5)) transposes_S128x128_S128x128_1_0)) (broadcastInDim S10000x128 ![0, 1] bcast_S1x128_S10000x128_0_1 (broadcastInDim S1x128 ![1] bcast_S128_S1x128_1 (m ((c.tc : Thread nD τ).loc main_arg6))))))
    : (⟨S10000x128, .f32⟩ : BufTy).Contents (Elt F))

/-- Every execution of the reference ends with its result array at that term and its arguments unchanged. -/
theorem run_refOut (ρ : Dev nD → PrngReg) :
    θ_run defs (onTc (τ := τ) (main (F := Ideal))) ⟨m, fun _ => 0, ρ⟩ fun r => ∀ c : Dev nD,
      r.2.mem ((c.tc : Thread nD τ).loc main_v16) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m ρ

/-- The result term is the stage function of the argument arrays. -/
theorem refOut_eq :
    refOut m c = Read.val_main_v16 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

/-- The reference's result at row J and column o is the two-relation convolution of the argument arrays:
    zero, plus A0^T (x W0^T + b0), plus A1^T (x W1^T + b1). -/
theorem refOut_apply (J : Fin 10000) (o : Fin 128) :
    refOut m c (ix2 J o)
      = Cert.RelConv.conv (argA0 m c) (argA1 m c) (argX m c) (argW0 m c) (argB0 m c) (argW1 m c) (argB1 m c) J o := by
  rw [refOut_eq]
  exact v16_ix2 _ _ _ _ _ _ _ J o

end Result

end Cert.ReferenceIdeal.RefSide

end
-- ==== Proof.Bridge.lean ====
import proofs.«179478_g15805479649410_cont_week2b_796_19_alg».proof.Proof.StepDefs
import proofs.«179478_g15805479649410_cont_week2b_796_19_alg».proof.Proof.RefSide

noncomputable section

namespace Cert.Bridge

open Idealize.ShloMosaic Idealize.ShloMosaic.TcCoe Idealize.ShloMosaic.ValueIdx
open Cert.KernelIdeal.Step Cert.ReferenceIdeal.RefSide

/-- From memories that agree on the seven arguments, the reference's result array is the array the kernel's result is
    shown to be: entry by entry both are the same function of the arguments' entries. -/
theorem refOut_eq_outArr
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    refOut m' c = outArr m c := by
  obtain ⟨h0, h1, h2, h3, h4, h5, h6⟩ := h
  have e0 : argA0 m' c = kA0 m c := by funext I J; unfold argA0 kA0; rw [h0]
  have e1 : argA1 m' c = kA1 m c := by funext I J; unfold argA1 kA1; rw [h1]
  have e2 : argX m' c = kX m c := by funext I d; unfold argX kX; rw [h2]
  have e3 : argW0 m' c = kW0 m c := by funext o d; unfold argW0 kW0; rw [h3]
  have e4 : argB0 m' c = kB0 m c := by funext o; unfold argB0 kB0; rw [h4]
  have e5 : argW1 m' c = kW1 m c := by funext o d; unfold argW1 kW1; rw [h5]
  have e6 : argB1 m' c = kB1 m c := by funext o; unfold argB1 kB1; rw [h6]
  funext idx
  obtain ⟨J, o, rfl⟩ : ∃ (J : Fin 10000) (o : Fin 128), idx = ix2 J o := ⟨idx 0, idx 1, eq_ix2 idx⟩
  rw [refOut_apply, e0, e1, e2, e3, e4, e5, e6]
  rfl

end Cert.Bridge

end
-- ==== Proof.lean ====
/- The certificate of a two-relation graph convolution, h = A_r0^T (x W0^T + b0) + A_r1^T (x W1^T + b1), computed by one
   pipelined kernel over a grid of four stripes of 2560 destination columns (the last overhanging the 10000 nodes) by ten
   contraction blocks of 1000 source rows, against the plain jnp reference.

   At the ideal instance both programs compute, at destination node J and feature o, the same finite sums over the
   extended reals: the kernel accumulates, block by block, the partial dot products of the affine maps' rows (computed once,
   during the first stripe, and kept) with the adjacency blocks' columns, and transposes the accumulator into the output
   block at a stripe's last block; the reference adds the two whole contractions to a zero array. The two agree by
   commutativity and associativity of addition and commutativity of multiplication alone (no finiteness is used): the
   blocks' partial sums regroup into the whole sums. What the overhanging adjacency blocks hold past the last destination
   node reaches only accumulator columns, hence output rows, past the last node, which the clipped write-back never writes.

   The frames: the word-level kernel's run is shown with nothing said of any buffer's contents (its matmul is opaque in whole
   operands, and no branch, address or trip count reads a data word); the idealized kernel's frame comes with its value run;
   the reference's is its run with the result dropped. The ideal pass rewrote nothing, so preservation is trivial. -/
import proofs.«179478_g15805479649410_cont_week2b_796_19_alg».proof.Defs
import proofs.«179478_g15805479649410_cont_week2b_796_19_alg».proof.Proof.Gen.Kernel
import proofs.«179478_g15805479649410_cont_week2b_796_19_alg».proof.Proof.Gen.KernelIdeal
import proofs.«179478_g15805479649410_cont_week2b_796_19_alg».proof.Proof.Gen.ReferenceIdeal
import proofs.«179478_g15805479649410_cont_week2b_796_19_alg».proof.Proof.Gen.Pre_finite_inputs
import proofs.«179478_g15805479649410_cont_week2b_796_19_alg».proof.Proof.Gen.ReferenceIdeal.Run
import proofs.«179478_g15805479649410_cont_week2b_796_19_alg».proof.Proof.KFrame
import proofs.«179478_g15805479649410_cont_week2b_796_19_alg».proof.Proof.DataRun
import proofs.«179478_g15805479649410_cont_week2b_796_19_alg».proof.Proof.RefSide
import proofs.«179478_g15805479649410_cont_week2b_796_19_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.FrameAll.frame (F := Bits) m ρ

theorem frame_kernelIdeal : Cert.frame_KernelIdeal := fun m ρ _ => Cert.KernelIdeal.Data.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `outArr`: the kernel by its value run, the reference because its composed
    term is that array entry by entry once the arguments agree. -/
theorem algebraic : Cert.algebraic_KernelIdeal_ReferenceIdeal := by
  intro m ρ m' ρ' _ hagree
  refine ⟨fun c => Cert.KernelIdeal.Step.outArr m c, Cert.KernelIdeal.Data.run_value m ρ, ?_⟩
  refine (θ_run Cert.ReferenceIdeal.defs _ _).mono (fun _ h c => ⟨(h c).1.trans ?_, (h c).2⟩)
    (Cert.ReferenceIdeal.RefSide.run_refOut m' ρ')
  exact Cert.Bridge.refOut_eq_outArr m m' c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
